-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S65536 : Shape := ⟨1, ![65536]⟩
abbrev S_ : Shape := ⟨0, ![]⟩
abbrev S64 : Shape := ⟨1, ![64]⟩
abbrev S65536x1 : Shape := ⟨2, ![65536, 1]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_
  bcast_S_S65536 : S_.BroadcastsInDim S65536 (![] : Fin 0 → Fin S65536.rank)
  bcast_S_S64 : S_.BroadcastsInDim S64 (![] : Fin 0 → Fin S64.rank)
  bcast_S65536_S65536x1_0 : S65536.BroadcastsInDim S65536x1 (![0] : Fin 1 → Fin S65536x1.rank)
  reducesTo_S64_S_d0 : S64.ReducesTo [0] S_
  scatter_S64_S65536x1_S65536_n_0_0_1_wf : ScatterDims.WF S64 S65536x1 S65536 [] [0] [0] 1

variable [Facts]

def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def fn_part2 {F : FTy → Type} [FloatOps F] (main_arg7 : FVec F S2 .f32) (main_arg8 : IVec S65536 32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_cst_14 : FVec F S_ .f32 := constant S_ .f32 0x3F800000#32
  let main_v39 : FVec F S65536 .f32 := broadcastInDim S65536 ![] bcast_S_S65536 main_cst_14
  let main_cst_15 : FVec F S_ .f32 := constant S_ .f32 0x00000000#32
  let main_v40 : FVec F S64 .f32 := broadcastInDim S64 ![] bcast_S_S64 main_cst_15
  let main_v41 : IVec S65536x1 32 := broadcastInDim S65536x1 ![0] bcast_S65536_S65536x1_0 main_arg8
  let main_v42 : FVec F S64 .f32 := (fun x i u => Host.scatterAdd scatter_S64_S65536x1_S65536_n_0_0_1 x i u) main_v40 main_v41 main_v39
  let main_cst_16 : FVec F S_ .f32 := constant S_ .f32 0x00000000#32
  let main_v43 : FVec F S64 .f32 := broadcastInDim S64 ![] bcast_S_S64 main_cst_16
  let main_v44 : IVec S64 1 := cmpf .ogt main_v42 main_v43
  let main_c_17 : IVec S_ 1 := constantI S_ 1 1#1
  let main_v45 : IVec S_ 1 := (fun x v => Host.reduce IntOp.andi x v reducesTo_S64_S_d0 h_S_) main_v44 main_c_17
  let main_v46 : IVec S_ 1 := andi main_v38 main_v45
  main_v46

def fn_part1 {F : FTy → Type} [FloatOps F] (main_arg4 : FVec F S1024 .f32) (main_arg5 : FVec F S1024 .f32) (main_arg6 : FVec F S1024x2 .f32) (main_arg7 : FVec F S2 .f32) (main_arg8 : IVec S65536 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2 .f32 := Host.absf main_arg6
  let main_cst_10 : FVec F S_ .f32 := constant S_ .f32 0x7F800000#32
  let main_v30 : FVec F S1024x2 .f32 := broadcastInDim S1024x2 ![] bcast_S_S1024x2 main_cst_10
  let main_v31 : IVec S1024x2 1 := cmpf .olt main_v29 main_v30
  let main_c_11 : IVec S_ 1 := constantI S_ 1 1#1
  let main_v32 : IVec S_ 1 := (fun x v => Host.reduce IntOp.andi x v reducesTo_S1024x2_S_d0_1 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S65536x1024 .f32) (main_arg2 : FVec F S1024x1024 .f32) (main_arg3 : FVec F S1024 .f32) (main_arg4 : FVec F S1024 .f32) (main_arg5 : FVec F S1024 .f32) (main_arg6 : FVec F S1024x2 .f32) (main_arg7 : FVec F S2 .f32) (main_arg8 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S65536 : Shape := ⟨1, ![65536]⟩
abbrev S65536x1 : Shape := ⟨2, ![65536, 1]⟩
abbrev S2x128x1024 : Shape := ⟨3, ![2, 128, 1024]⟩
abbrev S2x1x128 : Shape := ⟨3, ![2, 1, 128]⟩
abbrev S1024x1 : Shape := ⟨2, ![1024, 1]⟩
abbrev S1x128x1024 : Shape := ⟨3, ![1, 128, 1024]⟩
abbrev S1x1x128 : Shape := ⟨3, ![1, 1, 128]⟩
abbrev S128x1024 : Shape := ⟨2, ![128, 1024]⟩
abbrev S1x128 : Shape := ⟨2, ![1, 128]⟩
abbrev S1x1024 : Shape := ⟨2, ![1, 1024]⟩
abbrev S1024x128 : Shape := ⟨2, ![1024, 128]⟩
abbrev S128 : Shape := ⟨1, ![128]⟩
abbrev S_ : Shape := ⟨0, ![]⟩
abbrev S64x1024 : Shape := ⟨2, ![64, 1024]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 34
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2, .f32⟩
  | .hbm, ⟨7, _⟩ => ⟨S2, .f32⟩
  | .hbm, ⟨8, _⟩ => ⟨S65536, .i32⟩
  | .hbm, ⟨9, _⟩ => ⟨S1024x1024, .bf16⟩
  | .hbm, ⟨10, _⟩ => ⟨S65536x1, .i32⟩
  | .hbm, ⟨11, _⟩ => ⟨S2x128x1024, .f32⟩
  | .hbm, ⟨12, _⟩ => ⟨S2x1x128, .f32⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S1x128, .f32⟩
  | .hbm, ⟨17, _⟩ => ⟨S128, .f32⟩
  | .hbm, ⟨18, _⟩ => ⟨S64x1024, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .i1⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64x1, .f32⟩
  | .hbm, ⟨28, _⟩ => ⟨S64x1024, .f32⟩
  | .hbm, ⟨29, _⟩ => ⟨S64x1024, .f32⟩
  | .hbm, ⟨30, _⟩ => ⟨S64x2, .f32⟩
  | .hbm, ⟨31, _⟩ => ⟨S1x2, .f32⟩
  | .hbm, ⟨32, _⟩ => ⟨S64x2, .f32⟩
  | .hbm, ⟨33, _⟩ => ⟨S64x2, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .i32⟩
  | .local _ .vmem, ⟨5, _⟩ => ⟨S1024x1, .i32⟩
  | .local _ .vmem, ⟨6, _⟩ => ⟨S1024x1024, .bf16⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1x128x1024, .f32⟩
  | .local _ .vmem, ⟨11, _⟩ => ⟨S1x128x1024, .f32⟩
  | .local _ .vmem, ⟨12, _⟩ => ⟨S1x1x128, .f32⟩
  | .local _ .vmem, ⟨13, _⟩ => ⟨S1x1x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  shapeCasts_S65536_S65536x1 : S65536.ShapeCasts S65536x1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x128_d1_w32 : S1024x128.Iotas .tc 32 [1]
  broadcasts_S1024x1_S1024x128 : S1024x1.Broadcasts S1024x128
  natLt_1_32 : 1 < 32
  reduces_S1024x128_S128 : S1024x128.Reduces [0] S128
  shapeCasts_S128_S1x128 : S128.ShapeCasts S1x128
  reducesTo_S2x128x1024_S128x1024_d0 : S2x128x1024.ReducesTo [0] S128x1024
  h_S_ : 0 < S_.numel
  reducesTo_S2x1x128_S1x128_d0 : S2x1x128.ReducesTo [0] S1x128
  shapeCasts_S1x128_S128 : S1x128.ShapeCasts S128
  slices_S128x1024_S64x1024_0_0 : S128x1024.Slices ![0, 0] S64x1024
  slices_S128_S64_0 : S128.Slices ![0] S64
  bcast_S_S64 : S_.BroadcastsInDim S64 (![] : Fin 0 → Fin S64.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S1024x1024_S1024x1024_S1024x1024_1_0_0_1_n_n_wf : DotDims.WF S1024x1024 S1024x1024 S1024x1024 [1] [0] [0] [1] [] []
  dot_S1024x128_S1024x1024_S128x1024_0_0_1_1_n_n_wf : DotDims.WF S1024x128 S1024x1024 S128x1024 [0] [0] [1] [1] [] []
  dot_S64x1024_S1024x2_S64x2_1_0_0_1_n_n_wf : DotDims.WF S64x1024 S1024x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .i32 = 32 ∨ (Rect.block (s := S65536x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1024.size a ≤ S2x128x1024.size a
  hwx0_7 : ∀ i : grid0.Coords, EltTy.bits .f32 = 32 ∨ (Rect.block (s := S2x128x1024) S1x128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S2x1x128.size a
  hwx0_8 : ∀ i : grid0.Coords, EltTy.bits .f32 = 32 ∨ (Rect.block (s := S2x1x128) S1x1x128.size (cc0_transform_8 i) (hinb0_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x128_S1024x1024_S128x1024_0_0_1_1_n_n : DotDims S1024x128 S1024x1024 S128x1024 where
  lhsContracting := [0]
  rhsContracting := [0]
  lhsNonContracting := [1]
  rhsNonContracting := [1]
  lhsBatch := []
  rhsBatch := []
  wf := dot_S1024x128_S1024x1024_S128x1024_0_0_1_1_n_n_wf
def dot_S64x1024_S1024x2_S64x2_1_0_0_1_n_n : DotDims S64x1024 S1024x2 S64x2 where
  lhsContracting := [1]
  rhsContracting := [0]
  lhsNonContracting := [0]
  rhsNonContracting := [1]
  lhsBatch := []
  rhsBatch := []
  wf := dot_S64x1024_S1024x2_S64x2_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1x128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S65536 : Shape := ⟨1, ![65536]⟩
abbrev S1x1024 : Shape := ⟨2, ![1, 1024]⟩
abbrev S_ : Shape := ⟨0, ![]⟩
abbrev S65536x1 : Shape := ⟨2, ![65536, 1]⟩
abbrev S64x1024 : Shape := ⟨2, ![64, 1024]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2, .f32⟩
  | .hbm, ⟨7, _⟩ => ⟨S2, .f32⟩
  | .hbm, ⟨8, _⟩ => ⟨S65536, .i32⟩
  | .hbm, ⟨9, _⟩ => ⟨S65536x1024, .f32⟩
  | .hbm, ⟨10, _⟩ => ⟨S1x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S64x1024, .f32⟩
  | .hbm, ⟨45, _⟩ => ⟨S65536x1, .i32⟩
  | .hbm, ⟨46, _⟩ => ⟨S64x1024, .f32⟩
  | .hbm, ⟨47, _⟩ => ⟨S_, .f32⟩
  | .hbm, ⟨48, _⟩ => ⟨S65536, .f32⟩
  | .hbm, ⟨49, _⟩ => ⟨S_, .f32⟩
  | .hbm, ⟨50, _⟩ => ⟨S64, .f32⟩
  | .hbm, ⟨51, _⟩ => ⟨S65536x1, .i32⟩
  | .hbm, ⟨52, _⟩ => ⟨S64, .f32⟩
  | .hbm, ⟨53, _⟩ => ⟨S64x1, .f32⟩
  | .hbm, ⟨54, _⟩ => ⟨S64x1024, .f32⟩
  | .hbm, ⟨55, _⟩ => ⟨S64x1024, .f32⟩
  | .hbm, ⟨56, _⟩ => ⟨S64x2, .f32⟩
  | .hbm, ⟨57, _⟩ => ⟨S1x2, .f32⟩
  | .hbm, ⟨58, _⟩ => ⟨S64x2, .f32⟩
  | .hbm, ⟨59, _⟩ => ⟨S64x2, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S_S64x1024 : S_.BroadcastsInDim S64x1024 (![] : Fin 0 → Fin S64x1024.rank)
  bcast_S_S65536 : S_.BroadcastsInDim S65536 (![] : Fin 0 → Fin S65536.rank)
  bcast_S_S64 : S_.BroadcastsInDim S64 (![] : Fin 0 → Fin S64.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S65536x1024_S1024x1024_S65536x1024_1_0_0_1_n_n_wf : DotDims.WF S65536x1024 S1024x1024 S65536x1024 [1] [0] [0] [1] [] []
  scatter_S64x1024_S65536x1_S65536x1024_1_0_0_1_wf : ScatterDims.WF S64x1024 S65536x1 S65536x1024 [1] [0] [0] 1
  scatter_S64_S65536x1_S65536_n_0_0_1_wf : ScatterDims.WF S64 S65536x1 S65536 [] [0] [0] 1
  dot_S64x1024_S1024x2_S64x2_1_0_0_1_n_n_wf : DotDims.WF S64x1024 S1024x2 S64x2 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def scatter_S64x1024_S65536x1_S65536x1024_1_0_0_1 : ScatterDims S64x1024 S65536x1 S65536x1024 where
  updateWindowDims := [1]
  insertedWindowDims := [0]
  scatterDimsToOperandDims := [0]
  indexVectorDim := 1
  wf := scatter_S64x1024_S65536x1_S65536x1024_1_0_0_1_wf
def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def dot_S64x1024_S1024x2_S64x2_1_0_0_1_n_n : DotDims S64x1024 S1024x2 S64x2 where
  lhsContracting := [1]
  rhsContracting := [0]
  lhsNonContracting := [0]
  rhsNonContracting := [1]
  lhsBatch := []
  rhsBatch := []
  wf := dot_S64x1024_S1024x2_S64x2_1_0_0_1_n_n_wf

class Facts : Prop extends Facts₀ where

variable [Facts]
-- ==== Proof.Spec.lean ====
/-
  The mathematics both programs compute, with no program in sight.

  A token row `t` (of 65536) has a pre-activation row `h t = x t · W + bd + e t` (1024 entries); it is centred
  by its mean, scaled by the inverse root of its variance plus a small constant, then by `g` and shifted by `be`.
  The reference divides by the square root; the kernel multiplies by the reciprocal square root: two row
  functions, equal wherever the row is real-valued. Each token carries a segment word; segment `b` (of 64)
  collects the normalised rows whose word denotes `b` (`segSum`) and counts them (`segCnt`). The result is the
  per-segment mean pushed through one more matrix product and a bias: `tail`, the host chain both programs end with.
-/
import Idealize.ShloMosaic.PureOps
import Idealize.ShloMosaic.PureOps.Ideal
import Idealize.ShloMosaic.Lib.ValueIdx

noncomputable section

namespace SegMean

open Idealize.ShloMosaic

abbrev S64x1024 : Shape := ⟨2, ![64, 1024]⟩
abbrev S64 : Shape := ⟨1, ![64]⟩
abbrev S64x1 : Shape := ⟨2, ![64, 1]⟩
abbrev S1024x2 : Shape := ⟨2, ![1024, 2]⟩
abbrev S2 : Shape := ⟨1, ![2]⟩
abbrev S1x2 : Shape := ⟨2, ![1, 2]⟩
abbrev S64x2 : Shape := ⟨2, ![64, 2]⟩

/-- The last matrix product's dimension numbers: rows of the means against columns of the output weights. -/
def tailDot : DotDims S64x1024 S1024x2 S64x2 where
  lhsContracting := [1]
  rhsContracting := [0]
  lhsNonContracting := [0]
  rhsNonContracting := [1]
  lhsBatch := []
  rhsBatch := []
  wf := by decide

variable {F : FTy → Type} [FloatOps F]

/-- The host chain both programs end with: per-segment sums `S` divided row by row by the counts `n`, times the
    output weights, plus the output bias. -/
def tail (S : FVec F S64x1024 .f32) (n : FVec F S64 .f32) (Wo : FVec F S1024x2 .f32) (bo : FVec F S2 .f32) :
    FVec F S64x2 .f32 :=
  addf (Host.dotGeneral tailDot none
      (Host.divf S (broadcastInDim S64x1024 ![0, 1] (by decide) (broadcastInDim S64x1 ![0] (by decide) n))) Wo)
    (broadcastInDim S64x2 ![0, 1] (by decide) (broadcastInDim S1x2 ![1] (by decide) bo))

/-- The width of a row, as the float both programs divide by. -/
abbrev c1024 : EReal := Ideal.ofBits .f32 0x44800000#32
/-- The small constant added to the variance (the same word in both programs). -/
abbrev ceps : EReal := Ideal.ofBits .f32 0x2B8CBCCC#32

/-- A token's pre-activation row: its input row times the dense weights, plus the dense bias, plus its residual row. -/
def rowPre (xr er : Fin 1024 → EReal) (W : Fin 1024 → Fin 1024 → EReal) (bd : Fin 1024 → EReal) (j : Fin 1024) : EReal :=
  ((∑ k : Fin 1024, xr k * W k j) + bd j) + er j

/-- The mean of a row. -/
def rowMean (h : Fin 1024 → EReal) : EReal := Ideal.div (∑ k : Fin 1024, h k) c1024

/-- The (biased) variance of a row. -/
def rowVar (h : Fin 1024 → EReal) : EReal :=
  Ideal.div (∑ k : Fin 1024, (h k - rowMean h) * (h k - rowMean h)) c1024

/-- The reference's normalised row: centred, DIVIDED by the root of variance plus the constant, scaled, shifted. -/
def rowNormR (h g be : Fin 1024 → EReal) (j : Fin 1024) : EReal :=
  Ideal.div (h j - rowMean h) (Ideal.sqrt (rowVar h + ceps)) * g j + be j

/-- The kernel's normalised row: centred, TIMES the reciprocal root of variance plus the constant, scaled, shifted. -/
def rowNormK (h g be : Fin 1024 → EReal) (j : Fin 1024) : EReal :=
  ((h j - rowMean h) * Ideal.rsqrt (rowVar h + ceps)) * g j + be j

/-- Segment `b`'s sum of column `j` of `y`: over the tokens whose segment word, read signed, is `b`. -/
def segSum (ids : Fin 65536 → BitVec 32) (y : Fin 65536 → Fin 1024 → EReal) (b : Fin 64) (j : Fin 1024) : EReal :=
  ∑ t : Fin 65536, if (ids t).toInt = (b.val : ℤ) then y t j else 0

/-- Segment `b`'s token count. -/
def segCnt (ids : Fin 65536 → BitVec 32) (b : Fin 64) : EReal :=
  ∑ t : Fin 65536, if (ids t).toInt = (b.val : ℤ) then (1 : EReal) else 0

/-- The token row a grid point's block row is: core half `c'`, step `i`, row `r` of the block. -/
def grow (c' : Fin 2) (i : Fin 32) (r : Fin 1024) : Fin 65536 :=
  ⟨(c'.val * 32 + i.val) * 1024 + r.val, by have := c'.isLt; have := i.isLt; have := r.isLt; omega⟩

/-- Segment `b` as a lane of the kernel's 128-wide one-hot tile. -/
def lane (b : Fin 64) : Fin 128 := ⟨b.val, by have := b.isLt; omega⟩

end SegMean

end
-- ==== Proof.KDefs.lean ====
/-
  Names for what the kernel's region reads and leaves, with their literal types.

  A grid point `t` (of 64: core half `t / 32`, step `t % 32`) reads a block of 1024 token rows of the two
  activations and of the segment words, and the whole dense weights and the three vectors. `hnBlk` is the point's
  normalised block. The two output blocks are accumulators: reset at step 0 of each half, then each point adds
  its one-hot products (`accS`) and its one-hot column sums (`accC`) to what the point before left.
-/
import proofs.«422839_j3195455668298_3_alg».proof.Proof.Gen.KernelIdeal.Frame
import proofs.«422839_j3195455668298_3_alg».proof.Proof.Spec

noncomputable section

namespace Cert.KernelIdeal.SegValue

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The argument arrays as the program finds them. -/
abbrev arg0 (c : Dev nD) : FVec F S65536x1024 .f32 := m ((c.tc : Thread nD τ).loc main_arg0)
abbrev arg1 (c : Dev nD) : FVec F S65536x1024 .f32 := m ((c.tc : Thread nD τ).loc main_arg1)
abbrev arg2 (c : Dev nD) : FVec F S1024x1024 .f32 := m ((c.tc : Thread nD τ).loc main_arg2)
abbrev arg3 (c : Dev nD) : FVec F S1024 .f32 := m ((c.tc : Thread nD τ).loc main_arg3)
abbrev arg4 (c : Dev nD) : FVec F S1024 .f32 := m ((c.tc : Thread nD τ).loc main_arg4)
abbrev arg5 (c : Dev nD) : FVec F S1024 .f32 := m ((c.tc : Thread nD τ).loc main_arg5)
abbrev arg6 (c : Dev nD) : FVec F S1024x2 .f32 := m ((c.tc : Thread nD τ).loc main_arg6)
abbrev arg7 (c : Dev nD) : FVec F S2 .f32 := m ((c.tc : Thread nD τ).loc main_arg7)
abbrev arg8 (c : Dev nD) : IVec S65536 32 := m ((c.tc : Thread nD τ).loc main_arg8)

/-- Each input window's block at point `t`, at its literal type. -/
abbrev blk0 (c : Dev nD) (t : Fin cfg0.N) : Vec F S1024x1024 .f32 := iblk m c 0 t
abbrev blk1 (c : Dev nD) (t : Fin cfg0.N) : Vec F S1024x1024 .f32 := iblk m c 1 t
abbrev blk2 (c : Dev nD) (t : Fin cfg0.N) : Vec F S1024x1 .i32 := iblk m c 2 t
abbrev blk3 (c : Dev nD) (t : Fin cfg0.N) : Vec F S1024x1024 .bf16 := iblk m c 3 t
abbrev blk4 (c : Dev nD) (t : Fin cfg0.N) : Vec F S1024 .f32 := iblk m c 4 t
abbrev blk5 (c : Dev nD) (t : Fin cfg0.N) : Vec F S1024 .f32 := iblk m c 5 t
abbrev blk6 (c : Dev nD) (t : Fin cfg0.N) : Vec F S1024 .f32 := iblk m c 6 t

/-- The normalised block of point `t`: dense projection, bias, residual, centring, scaling. -/
def hnBlk (c : Dev nD) (t : Fin cfg0.N) : FVec F S1024x1024 .f32 :=
  k0_pay6 (blk0 m c t) (blk3 m c t) (blk4 m c t) (blk1 m c t) (blk5 m c t) (blk6 m c t)

/-- The sums block after point `n`: at a half's first step the zero block plus the point's one-hot products, later
    the previous contents plus them. -/
def accS (c : Dev nD) : (n : ℕ) → n < cfg0.N → Vec F S1x128x1024 .f32
  | 0, h => k0_pay2 (hnBlk m c ⟨0, h⟩) (blk2 m c ⟨0, h⟩) k0_pay4
  | n + 1, h =>
    if (n + 1) % 32 = 0 then k0_pay2 (hnBlk m c ⟨n + 1, h⟩) (blk2 m c ⟨n + 1, h⟩) k0_pay4
    else k0_pay2 (hnBlk m c ⟨n + 1, h⟩) (blk2 m c ⟨n + 1, h⟩) (accS c n (Nat.lt_of_succ_lt h))

/-- The counts block after point `n`, likewise. -/
def accC (c : Dev nD) : (n : ℕ) → n < cfg0.N → Vec F S1x1x128 .f32
  | 0, h => k0_pay3 (blk2 m c ⟨0, h⟩) k0_pay5
  | n + 1, h =>
    if (n + 1) % 32 = 0 then k0_pay3 (blk2 m c ⟨n + 1, h⟩) k0_pay5
    else k0_pay3 (blk2 m c ⟨n + 1, h⟩) (accC c n (Nat.lt_of_succ_lt h))

/-- The two result arrays of the region once it has run. -/
abbrev sums2 (c : Dev nD) : FVec F S2x128x1024 .f32 := (dats m 0 c).arrAt 7 cfg0.N
abbrev cnts2 (c : Dev nD) : FVec F S2x1x128 .f32 := (dats m 0 c).arrAt 8 cfg0.N

/-- Step `i` of half `c'` is a grid point. -/
theorem lt_N (c' : Fin 2) (i : Fin 32) : c'.val * 32 + i.val < cfg0.N := by
  show _ < grid0.N
  rw [N_0]; have := c'.isLt; have := i.isLt; omega

/-- That grid point. -/
abbrev pt (c' : Fin 2) (i : Fin 32) : Fin cfg0.N := ⟨c'.val * 32 + i.val, lt_N c' i⟩

end Cert.KernelIdeal.SegValue

/-! At the exact instance: the token rows and segment words the sums are over. -/

namespace Cert.KernelIdeal.SegValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Token `t`'s segment word. -/
def ids (c : Dev nD) (t : Fin 65536) : BitVec 32 := arg8 m c (ix1 t)

/-- Token `t`'s normalised row, the kernel's way (times the reciprocal root). -/
def yK (c : Dev nD) (t : Fin 65536) (j : Fin 1024) : EReal :=
  SegMean.rowNormK
    (SegMean.rowPre (fun k => arg0 m c (ix2 t k)) (fun k => arg1 m c (ix2 t k)) (fun k j => arg2 m c (ix2 k j))
      (fun j => arg3 m c (ix1 j)))
    (fun j => arg4 m c (ix1 j)) (fun j => arg5 m c (ix1 j)) j

/-- The one-hot entry of token `t` at lane `b`. -/
def oh (c : Dev nD) (t : Fin 65536) (b : Fin 128) : EReal := if ids m c t = BitVec.ofNat 32 b.val then 1 else 0

end Cert.KernelIdeal.SegValue

end
-- ==== Proof.KPieces.lean ====
/-
  What one run of the kernel body leaves in its two output blocks, as values.

  At a half's first step (case A) the body stores zeros, reads them back, and stores the zeros plus its products;
  at every other step (case B) it reads what the point before left and stores that plus its products. Either way
  the block ends at one store's payload of the loaded inputs.
-/
import proofs.«422839_j3195455668298_3_alg».proof.Proof.Gen.KernelIdeal.Frame
import Idealize.ShloMosaic.Lib.Pipeline.Value
import Idealize.ShloMosaic.Lib.Tactic

noncomputable section

namespace Cert.KernelIdeal.SegValue

open Idealize.ShloMosaic Idealize.ShloMosaic.TcCoe Idealize.ShloMosaic.Tactic Idealize.SL.Sem
open Cert.KernelIdeal Cert.KernelIdeal.Gen

variable {F : FTy → Type} [FloatOps F]

/-- The zero offsets of a whole block of rank three, two and one, as the constant function. -/
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- Case A, the sums block: the zero block plus the point's one-hot products. -/
theorem out_A_7 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1 .i32) (h4 : a4.IsWhole) (a5 : Memref sig .tc .vmem S1024x1024 .bf16) (h5 : a5.IsWhole) (a6 : Memref sig .tc .vmem S1024 .f32) (h6 : a6.IsWhole) (a7 : Memref sig .tc .vmem S1024 .f32) (h7 : a7.IsWhole) (a8 : Memref sig .tc .vmem S1024 .f32) (h8 : a8.IsWhole) (a9 : Memref sig .tc .vmem S1x128x1024 .f32) (h9 : a9.IsWhole) (a10 : Memref sig .tc .vmem S1x1x128 .f32) (h10 : a10.IsWhole) (hc : cond0_0 i)
    (x0 : Vec F S1024x1024 .f32) (x1 : Vec F S1024x1024 .f32) (x2 : Vec F S1024x1 .i32) (x3 : Vec F S1024x1024 .bf16) (x4 : Vec F S1024 .f32) (x5 : Vec F S1024 .f32) (x6 : Vec F S1024 .f32) :
    out0_A_7 c i a2 h2 a3 h3 a4 h4 a5 h5 a6 h6 a7 h7 a8 h8 a9 h9 a10 h10 hc x0 x1 x2 x3 x4 x5 x6 = k0_pay2 (k0_pay6 x0 x3 x4 x1 x5 x6) x2 k0_pay4 := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x128x1024) hz3, View.readCov_unit_zero (S := S1x128x1024) _ hz3]
  simp only [View.readAt_eq_ld, h2.read_unread, h3.read_unread, h4.read_unread, h5.read_unread, h6.read_unread,
    h7.read_unread, h8.read_unread, View.ld_unit_zero (S := S1024x1024) hz2, View.ld_unit_zero (S := S1024x1) hz2,
    View.ld_unit_zero (S := S1024) hz1]

/-- Case A, the counts block: the zero block plus the point's one-hot column sums. -/
theorem out_A_8 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1 .i32) (h4 : a4.IsWhole) (a5 : Memref sig .tc .vmem S1024x1024 .bf16) (h5 : a5.IsWhole) (a6 : Memref sig .tc .vmem S1024 .f32) (h6 : a6.IsWhole) (a7 : Memref sig .tc .vmem S1024 .f32) (h7 : a7.IsWhole) (a8 : Memref sig .tc .vmem S1024 .f32) (h8 : a8.IsWhole) (a9 : Memref sig .tc .vmem S1x128x1024 .f32) (h9 : a9.IsWhole) (a10 : Memref sig .tc .vmem S1x1x128 .f32) (h10 : a10.IsWhole) (hc : cond0_0 i)
    (x0 : Vec F S1024x1024 .f32) (x1 : Vec F S1024x1024 .f32) (x2 : Vec F S1024x1 .i32) (x3 : Vec F S1024x1024 .bf16) (x4 : Vec F S1024 .f32) (x5 : Vec F S1024 .f32) (x6 : Vec F S1024 .f32) :
    out0_A_8 c i a2 h2 a3 h3 a4 h4 a5 h5 a6 h6 a7 h7 a8 h8 a9 h9 a10 h10 hc x0 x1 x2 x3 x4 x5 x6 = k0_pay3 x2 k0_pay5 := by
  unfold out0_A_8
  rw [View.read_writes_eq_canon _ _ _ (cover0_A_8 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1x128) hz3, View.readCov_unit_zero (S := S1x1x128) _ hz3]
  simp only [View.readAt_eq_ld, h4.read_unread, View.ld_unit_zero (S := S1024x1) hz2]

/-- Case B, the sums block: what the point before left plus the point's one-hot products. -/
theorem out_B_7 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1 .i32) (h4 : a4.IsWhole) (a5 : Memref sig .tc .vmem S1024x1024 .bf16) (h5 : a5.IsWhole) (a6 : Memref sig .tc .vmem S1024 .f32) (h6 : a6.IsWhole) (a7 : Memref sig .tc .vmem S1024 .f32) (h7 : a7.IsWhole) (a8 : Memref sig .tc .vmem S1024 .f32) (h8 : a8.IsWhole) (a9 : Memref sig .tc .vmem S1x128x1024 .f32) (h9 : a9.IsWhole) (a10 : Memref sig .tc .vmem S1x1x128 .f32) (h10 : a10.IsWhole) (hc : ¬cond0_0 i)
    (x0 : Vec F S1024x1024 .f32) (x1 : Vec F S1024x1024 .f32) (x2 : Vec F S1024x1 .i32) (x3 : Vec F S1024x1024 .bf16) (x4 : Vec F S1024 .f32) (x5 : Vec F S1024 .f32) (x6 : Vec F S1024 .f32) (xo7 : Vec F S1x128x1024 .f32) (xo8 : Vec F S1x1x128 .f32) :
    out0_B_7 c i a2 h2 a3 h3 a4 h4 a5 h5 a6 h6 a7 h7 a8 h8 a9 h9 a10 h10 hc x0 x1 x2 x3 x4 x5 x6 xo7 xo8 = k0_pay2 (k0_pay6 x0 x3 x4 x1 x5 x6) x2 xo7 := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xo7 xo8)]
  unfold kernelRun0_B
  dsimp only
  sl_unfold_words
  rw [View.canon_unit_zero (S := S1x128x1024) hz3]
  simp only [View.readAt_eq_ld, h2.read_unread, h3.read_unread, h4.read_unread, h5.read_unread, h6.read_unread,
    h7.read_unread, h8.read_unread, View.ld_unit_zero (S := S1024x1024) hz2, View.ld_unit_zero (S := S1024x1) hz2,
    View.ld_unit_zero (S := S1024) hz1, h9.read_unread, View.ld_unit_zero (S := S1x128x1024) hz3]

/-- Case B, the counts block: what the point before left plus the point's one-hot column sums. -/
theorem out_B_8 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1 .i32) (h4 : a4.IsWhole) (a5 : Memref sig .tc .vmem S1024x1024 .bf16) (h5 : a5.IsWhole) (a6 : Memref sig .tc .vmem S1024 .f32) (h6 : a6.IsWhole) (a7 : Memref sig .tc .vmem S1024 .f32) (h7 : a7.IsWhole) (a8 : Memref sig .tc .vmem S1024 .f32) (h8 : a8.IsWhole) (a9 : Memref sig .tc .vmem S1x128x1024 .f32) (h9 : a9.IsWhole) (a10 : Memref sig .tc .vmem S1x1x128 .f32) (h10 : a10.IsWhole) (hc : ¬cond0_0 i)
    (x0 : Vec F S1024x1024 .f32) (x1 : Vec F S1024x1024 .f32) (x2 : Vec F S1024x1 .i32) (x3 : Vec F S1024x1024 .bf16) (x4 : Vec F S1024 .f32) (x5 : Vec F S1024 .f32) (x6 : Vec F S1024 .f32) (xo7 : Vec F S1x128x1024 .f32) (xo8 : Vec F S1x1x128 .f32) :
    out0_B_8 c i a2 h2 a3 h3 a4 h4 a5 h5 a6 h6 a7 h7 a8 h8 a9 h9 a10 h10 hc x0 x1 x2 x3 x4 x5 x6 xo7 xo8 = k0_pay3 x2 xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 x6 xo7 xo8)]
  unfold kernelRun0_B
  dsimp only
  sl_unfold_words
  rw [View.canon_unit_zero (S := S1x1x128) hz3]
  simp only [View.readAt_eq_ld, h4.read_unread, h10.read_unread, View.ld_unit_zero (S := S1024x1) hz2,
    View.ld_unit_zero (S := S1x1x128) hz3]

end Cert.KernelIdeal.SegValue

end
-- ==== Proof.KChain.lean ====
/-
  The region's two result arrays are the accumulators after each half's last step.

  By induction on the grid point the output blocks hold `accS` and `accC`; a block is written back only after step
  31 of its half, to block `c'` of its array; the two write-backs cover the array.
-/
import proofs.«422839_j3195455668298_3_alg».proof.Proof.KDefs
import proofs.«422839_j3195455668298_3_alg».proof.Proof.KPieces
import Idealize.ShloMosaic.Lib.Pipeline.Value

noncomputable section

namespace Cert.KernelIdeal.SegValue

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-- After every point the two output blocks hold the accumulators. -/
theorem outsAt_eq (c : Dev nD) : ∀ (n : ℕ) (h : n < cfg0.N), outsAt0 m c n h = (accS m c n h, accC m c n h)
  | 0, h => by
    rw [outsAt0_A m c ⟨0, h⟩ rfl, out_A_7, out_A_8, accS, accC]
    unfold hnBlk
    rfl
  | n + 1, h => by
    by_cases h0 : (n + 1) % 32 = 0
    · rw [outsAt0_A m c ⟨n + 1, h⟩ h0, out_A_7, out_A_8, accS, accC, if_pos h0, if_pos h0]
      unfold hnBlk
      rfl
    · rw [outsAt0_B m c ⟨n + 1, h⟩ h0, out_B_7, out_B_8, accS, accC, if_neg h0, if_neg h0]
      dsimp only
      show (k0_pay2 _ _ (outsAt0 m c n _).1, k0_pay3 _ (outsAt0 m c n _).2) = _
      rw [outsAt_eq c n]
      unfold hnBlk
      rfl

/-- The accumulator at equal points and equal indices. -/
private theorem accS_at (c : Dev nD) (n n' : ℕ) (h : n < cfg0.N) (h' : n' < cfg0.N) (e : n' = n)
    (x x' : S1x128x1024.Idx) (ex : x' = x) : accS m c n' h' x' = accS m c n h x := by
  subst e; subst ex; rfl

/-- The sums window's block index at a point: the point's half, then zero on the other two axes. -/
private theorem idx7 : ∀ t : Fin cfg0.N, win0_7.index t 0 = t.val / 32 ∧ win0_7.index t 1 = 0 ∧ win0_7.index t 2 = 0 :=
  (by decide +kernel : ∀ t : Fin grid0.N, win0_7.index t 0 = t.val / 32 ∧ win0_7.index t 1 = 0 ∧ win0_7.index t 2 = 0)

/-- The whole sums array: half `c'` holds the sums accumulator after that half's last step. -/
private def GS (c : Dev nD) : FVec F S2x128x1024 .f32 := fun i =>
  accS m c ((i 0).val * 32 + 31) (lt_N (i 0) 31) (ix3 (0 : Fin 1) (i 1 : Fin 128) (i 2 : Fin 1024))

/-- What a point that writes the sums block back writes is its block of the whole sums array. -/
private theorem flushedS (c : Dev nD) (t : Fin cfg0.N) (hf : (cfg0.win 7).flush t = true) :
    (dats m 0 c).flushed 7 t = ((cfg0.win 7).blk t).view.read (Elt F) (GS m c) := by
  have h31 : t.val % 32 = 31 := (flush0_7 t).mp hf
  obtain ⟨e0, e1, e2⟩ := idx7 t
  show (cfg0.win 7).cut (grid0.coords t) ((dats m 0 c).after 7 t) = _
  rw [after0_7, outsAt_eq]
  funext y
  rw [View.read_apply]
  show accS m c t.val t.isLt ((cfg0.win 7).xinj (grid0.coords t) y)
    = GS m c (((cfg0.win 7).blk t).view.emb y : S2x128x1024.Idx)
  have k0 : ((((cfg0.win 7).blk t).view.emb y : S2x128x1024.Idx) 0 : ℕ) = win0_7.index t 0 * 1 + 1 * (y 0).val := rfl
  have k1 : ((((cfg0.win 7).blk t).view.emb y : S2x128x1024.Idx) 1 : ℕ) = win0_7.index t 1 * 128 + 1 * (y 1).val := rfl
  have k2 : ((((cfg0.win 7).blk t).view.emb y : S2x128x1024.Idx) 2 : ℕ) = win0_7.index t 2 * 1024 + 1 * (y 2).val := rfl
  have y0 : (y 0).val < 1 := (y 0).isLt
  generalize (((cfg0.win 7).blk t).view.emb y : S2x128x1024.Idx) = i at k0 k1 k2 ⊢
  unfold GS
  refine (accS_at m c _ _ _ _ ?_ _ _ ?_).symm
  · rw [k0, e0]; omega
  · funext a
    apply Fin.ext
    match a with
    | ⟨0, _⟩ => show 0 = (y 0).val; omega
    | ⟨1, _⟩ => show (i 1).val = (y 1).val; rw [k1, e1]; omega
    | ⟨2, _⟩ => show (i 2).val = (y 2).val; rw [k2, e2]; omega

/-- Every index of the sums array is in the block its half's last point writes back. -/
private theorem coverS (i : S2x128x1024.Idx) :
    ∃ t : Fin cfg0.N, (cfg0.win 7).flush t = true ∧ i ∈ ((cfg0.win 7).blk t).view.set := by
  have h0 : (i 0 : Nat) < 2 := (i 0).isLt
  have h1 : (i 1 : Nat) < 128 := (i 1).isLt
  have h2 : (i 2 : Nat) < 1024 := (i 2).isLt
  have hN : cfg0.N = 64 := N_0
  have ht : (i 0).val * 32 + 31 < cfg0.N := by omega
  refine ⟨⟨(i 0).val * 32 + 31, ht⟩, (flush0_7 _).mpr (by dsimp only; omega), ?_⟩
  obtain ⟨e0, e1, e2⟩ := idx7 ⟨(i 0).val * 32 + 31, ht⟩
  show i ∈ ((View.whole main_v2_0).slice (win0_7.rect ⟨(i 0).val * 32 + 31, ht⟩)).set
  rw [View.set_slice_whole, Rect.mem_set_unit]
  intro a
  match a with
  | ⟨0, _⟩ =>
    show win0_7.index ⟨(i 0).val * 32 + 31, ht⟩ 0 * 1 ≤ (i 0 : Nat) ∧ (i 0 : Nat) < win0_7.index ⟨(i 0).val * 32 + 31, ht⟩ 0 * 1 + 1
    rw [e0]; dsimp only; omega
  | ⟨1, _⟩ =>
    show win0_7.index ⟨(i 0).val * 32 + 31, ht⟩ 1 * 128 ≤ (i 1 : Nat) ∧ (i 1 : Nat) < win0_7.index ⟨(i 0).val * 32 + 31, ht⟩ 1 * 128 + 128
    rw [e1]; omega
  | ⟨2, _⟩ =>
    show win0_7.index ⟨(i 0).val * 32 + 31, ht⟩ 2 * 1024 ≤ (i 2 : Nat) ∧ (i 2 : Nat) < win0_7.index ⟨(i 0).val * 32 + 31, ht⟩ 2 * 1024 + 1024
    rw [e2]; omega

/-- So the sums array ends holding it. -/
private theorem finalS (c : Dev nD) : (dats m 0 c).arrAt 7 cfg0.N = GS m c :=
  (dats m 0 c).arrAt_eq_of_cover 7 (GS m c) (flushedS m c) coverS

/-- Half `c'` of the sums array is the sums accumulator after that half's last step. -/
theorem sums2_eq (c : Dev nD) (c' : Fin 2) (b : Fin 128) (j : Fin 1024) :
    sums2 m c (ix3 c' b j) = accS m c (c'.val * 32 + 31) (lt_N c' 31) (ix3 (0 : Fin 1) b j) := by
  show (dats m 0 c).arrAt 7 cfg0.N (ix3 c' b j) = _
  rw [finalS]
  rfl

/-- The counts accumulator at equal points and equal indices. -/
private theorem accC_at (c : Dev nD) (n n' : ℕ) (h : n < cfg0.N) (h' : n' < cfg0.N) (e : n' = n)
    (x x' : S1x1x128.Idx) (ex : x' = x) : accC m c n' h' x' = accC m c n h x := by
  subst e; subst ex; rfl

/-- The counts window's block index at a point: the point's half, then zero on the other two axes. -/
private theorem idx8 : ∀ t : Fin cfg0.N, win0_8.index t 0 = t.val / 32 ∧ win0_8.index t 1 = 0 ∧ win0_8.index t 2 = 0 :=
  (by decide +kernel : ∀ t : Fin grid0.N, win0_8.index t 0 = t.val / 32 ∧ win0_8.index t 1 = 0 ∧ win0_8.index t 2 = 0)

/-- The whole counts array: half `c'` holds the counts accumulator after that half's last step. -/
private def GC (c : Dev nD) : FVec F S2x1x128 .f32 := fun i =>
  accC m c ((i 0).val * 32 + 31) (lt_N (i 0) 31) (ix3 (0 : Fin 1) (i 1 : Fin 1) (i 2 : Fin 128))

/-- What a point that writes the counts block back writes is its block of the whole counts array. -/
private theorem flushedC (c : Dev nD) (t : Fin cfg0.N) (hf : (cfg0.win 8).flush t = true) :
    (dats m 0 c).flushed 8 t = ((cfg0.win 8).blk t).view.read (Elt F) (GC m c) := by
  have h31 : t.val % 32 = 31 := (flush0_8 t).mp hf
  obtain ⟨e0, e1, e2⟩ := idx8 t
  show (cfg0.win 8).cut (grid0.coords t) ((dats m 0 c).after 8 t) = _
  rw [after0_8, outsAt_eq]
  funext y
  rw [View.read_apply]
  show accC m c t.val t.isLt ((cfg0.win 8).xinj (grid0.coords t) y)
    = GC m c (((cfg0.win 8).blk t).view.emb y : S2x1x128.Idx)
  have k0 : ((((cfg0.win 8).blk t).view.emb y : S2x1x128.Idx) 0 : ℕ) = win0_8.index t 0 * 1 + 1 * (y 0).val := rfl
  have k1 : ((((cfg0.win 8).blk t).view.emb y : S2x1x128.Idx) 1 : ℕ) = win0_8.index t 1 * 1 + 1 * (y 1).val := rfl
  have k2 : ((((cfg0.win 8).blk t).view.emb y : S2x1x128.Idx) 2 : ℕ) = win0_8.index t 2 * 128 + 1 * (y 2).val := rfl
  have y0 : (y 0).val < 1 := (y 0).isLt
  generalize (((cfg0.win 8).blk t).view.emb y : S2x1x128.Idx) = i at k0 k1 k2 ⊢
  unfold GC
  refine (accC_at m c _ _ _ _ ?_ _ _ ?_).symm
  · rw [k0, e0]; omega
  · funext a
    apply Fin.ext
    match a with
    | ⟨0, _⟩ => show 0 = (y 0).val; omega
    | ⟨1, _⟩ => show (i 1).val = (y 1).val; rw [k1, e1]; omega
    | ⟨2, _⟩ => show (i 2).val = (y 2).val; rw [k2, e2]; omega

/-- Every index of the counts array is in the block its half's last point writes back. -/
private theorem coverC (i : S2x1x128.Idx) :
    ∃ t : Fin cfg0.N, (cfg0.win 8).flush t = true ∧ i ∈ ((cfg0.win 8).blk t).view.set := by
  have h0 : (i 0 : Nat) < 2 := (i 0).isLt
  have h1 : (i 1 : Nat) < 1 := (i 1).isLt
  have h2 : (i 2 : Nat) < 128 := (i 2).isLt
  have hN : cfg0.N = 64 := N_0
  have ht : (i 0).val * 32 + 31 < cfg0.N := by omega
  refine ⟨⟨(i 0).val * 32 + 31, ht⟩, (flush0_8 _).mpr (by dsimp only; omega), ?_⟩
  obtain ⟨e0, e1, e2⟩ := idx8 ⟨(i 0).val * 32 + 31, ht⟩
  show i ∈ ((View.whole main_v2_1).slice (win0_8.rect ⟨(i 0).val * 32 + 31, ht⟩)).set
  rw [View.set_slice_whole, Rect.mem_set_unit]
  intro a
  match a with
  | ⟨0, _⟩ =>
    show win0_8.index ⟨(i 0).val * 32 + 31, ht⟩ 0 * 1 ≤ (i 0 : Nat) ∧ (i 0 : Nat) < win0_8.index ⟨(i 0).val * 32 + 31, ht⟩ 0 * 1 + 1
    rw [e0]; dsimp only; omega
  | ⟨1, _⟩ =>
    show win0_8.index ⟨(i 0).val * 32 + 31, ht⟩ 1 * 1 ≤ (i 1 : Nat) ∧ (i 1 : Nat) < win0_8.index ⟨(i 0).val * 32 + 31, ht⟩ 1 * 1 + 1
    rw [e1]; omega
  | ⟨2, _⟩ =>
    show win0_8.index ⟨(i 0).val * 32 + 31, ht⟩ 2 * 128 ≤ (i 2 : Nat) ∧ (i 2 : Nat) < win0_8.index ⟨(i 0).val * 32 + 31, ht⟩ 2 * 128 + 128
    rw [e2]; omega

/-- So the counts array ends holding it. -/
private theorem finalC (c : Dev nD) : (dats m 0 c).arrAt 8 cfg0.N = GC m c :=
  (dats m 0 c).arrAt_eq_of_cover 8 (GC m c) (flushedC m c) coverC

/-- Half `c'` of the counts array is the counts accumulator after that half's last step. -/
theorem cnts2_eq (c : Dev nD) (c' : Fin 2) (b : Fin 128) :
    cnts2 m c (ix3 c' (0 : Fin 1) b) = accC m c (c'.val * 32 + 31) (lt_N c' 31) (ix3 (0 : Fin 1) (0 : Fin 1) b) := by
  show (dats m 0 c).arrAt 8 cfg0.N (ix3 c' (0 : Fin 1) b) = _
  rw [finalC]
  rfl

end Cert.KernelIdeal.SegValue

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KPayload.lean ====
/-
  The kernel body's arithmetic read at an index, at the exact instance.

  A block row `r` of the normalised block is the row function `rowNormK` of the row's pre-activation: the row of
  the activations times the dense weights, plus the bias and the residual row, centred by its mean and scaled by
  the reciprocal root of its variance plus the constant, then by the gain and shifted.
-/
import proofs.«422839_j3195455668298_3_alg».proof.Proof.Gen.KernelIdeal.Skeleton
import proofs.«422839_j3195455668298_3_alg».proof.Proof.Spec
import proofs.«422839_j3195455668298_3_alg».proof.Proof.LibRowLayers

noncomputable section

namespace Cert.KernelIdeal.SegValue

open Idealize.ShloMosaic Idealize.ShloMosaic.TcCoe Idealize.SL.Sem Idealize.ShloMosaic.ValueIdx
open Cert.KernelIdeal Cert.KernelIdeal.Gen

/-! ## The matrix product, rows of the left operand against columns of the right, at an entry -/

private theorem lhs_mm_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

private theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

private theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

private theorem rhs_mm_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Entry (r, j) of the product into the zero block: the sum over k of A (r, k) * B (k, j). -/
private theorem mm_apply (A B : FVec Ideal S1024x1024 .bf16) (r j : Fin 1024) :
    matmul dot_S1024x1024_S1024x1024_S1024x1024_1_0_0_1_n_n none A B (constant (F := Ideal) S1024x1024 .f32 0x00000000#32) (ix2 r j)
      = ∑ k : Fin 1024, A (ix2 r k) * B (ix2 k j) := by
  refine (Ideal.matmul_constant_zero_apply dot_S1024x1024_S1024x1024_S1024x1024_1_0_0_1_n_n none A B (ix2 r j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j) ((contrEquiv1 dot_S1024x1024_S1024x1024_S1024x1024_1_0_0_1_n_n 1024 rfl rfl).symm k) = ix2 r k :=
    funext fun a => Fin.ext (by
      match a with
      | ⟨0, _⟩ => exact lhs_mm_0 _ _
      | ⟨1, _⟩ => exact (lhs_mm_1 _ _).trans hk)
  have er : dot_S1024x1024_S1024x1024_S1024x1024_1_0_0_1_n_n.rhsIdx (ix2 r j) ((contrEquiv1 dot_S1024x1024_S1024x1024_S1024x1024_1_0_0_1_n_n 1024 rfl rfl).symm k) = ix2 k j :=
    funext fun a => Fin.ext (by
      match a with
      | ⟨0, _⟩ => exact (rhs_mm_0 _ _).trans hk
      | ⟨1, _⟩ => exact rhs_mm_1 _ _)
  rw [el, er]

/-- The pre-activation block at (r, k). -/
private theorem pre_apply (x0 x1 : FVec Ideal S1024x1024 .f32) (w : FVec Ideal S1024x1024 .bf16)
    (bd : FVec Ideal S1024 .f32) (r k : Fin 1024) :
    addf (addf (matmul dot_S1024x1024_S1024x1024_S1024x1024_1_0_0_1_n_n none (truncf .bf16 x0 bitsLt_bf16_f32)
            (shapeCast S1024x1024 w shapeCasts_S1024x1024_S1024x1024)
            (constant (F := Ideal) S1024x1024 .f32 0x00000000#32))
          (broadcastTo S1024x1024 (shapeCast S1x1024 bd shapeCasts_S1024_S1x1024) broadcasts_S1x1024_S1024x1024))
        x1 (ix2 r k)
      = SegMean.rowPre (fun c => x0 (ix2 r c)) (fun c => x1 (ix2 r c)) (fun c d => w (ix2 c d))
          (fun d => bd (ix1 d)) k := by
  rw [addf_apply, addf_apply, mm_apply, RowLayers.biasRow_apply, shapeCast_self]
  rfl

/-! ## The row statistics as columns -/

/-- The column of row sums divided by the row width. -/
private abbrev meanCol (y : FVec Ideal S1024x1024 .f32) : FVec Ideal S1024x1 .f32 :=
  divf (shapeCast S1024x1
      (multiReduction (F := Ideal) .add [1] S1024 y 0x00000000#32 reduces_S1024x1024_S1024 (.inl rfl) rfl)
      shapeCasts_S1024_S1024x1)
    (broadcast S1024x1 (Scalar.ofBits (F := Ideal) .f32 0x44800000#32))

/-- The block less its rows' means. -/
private abbrev centred (y : FVec Ideal S1024x1024 .f32) : FVec Ideal S1024x1024 .f32 :=
  subf y (broadcastTo S1024x1024 (meanCol y) broadcasts_S1024x1_S1024x1024)

/-- The column of reciprocal roots of the rows' variances plus the constant. -/
private abbrev scaleCol (y : FVec Ideal S1024x1024 .f32) : FVec Ideal S1024x1 .f32 :=
  rsqrt (addf (meanCol (mulf (centred y) (centred y)))
    (broadcast S1024x1 (Scalar.ofBits (F := Ideal) .f32 0x2B8CBCCC#32)))

/-- A vector laid as a row and repeated down the block. -/
private abbrev rowOf (v : FVec Ideal S1024 .f32) : FVec Ideal S1024x1024 .f32 :=
  broadcastTo S1024x1024 (shapeCast S1x1024 v shapeCasts_S1024_S1x1024) broadcasts_S1x1024_S1024x1024

/-- The normalised block of a pre-activation block. -/
private abbrev normBlk (y : FVec Ideal S1024x1024 .f32) (g be : FVec Ideal S1024 .f32) : FVec Ideal S1024x1024 .f32 :=
  addf (mulf (mulf (centred y) (broadcastTo S1024x1024 (scaleCol y) broadcasts_S1024x1_S1024x1024)) (rowOf g)) (rowOf be)

/-- Entry r of the mean column is the mean of row r. -/
private theorem meanCol_apply (y : FVec Ideal S1024x1024 .f32) (r : Fin 1024) (u : Fin 1) :
    meanCol y (ix2 r u) = SegMean.rowMean (fun c => y (ix2 r c)) := by
  show Ideal.div (shapeCast S1024x1
      (multiReduction (F := Ideal) .add [1] S1024 y 0x00000000#32 reduces_S1024x1024_S1024 (.inl rfl) rfl)
      shapeCasts_S1024_S1024x1 (ix2 r u)) SegMean.c1024 = _
  rw [RowLayers.column_apply]
  unfold SegMean.rowMean
  refine congrArg (fun s => Ideal.div s SegMean.c1024) ?_
  refine (Ideal.multiReduction_add_single y _ reduces_S1024x1024_S1024 _ _ (ix1 r)).trans ?_
  refine Finset.sum_congr rfl fun c _ => ?_
  rw [RowLayers.lift_cols]
  rfl

/-- The centred block at (r, k). -/
private theorem centred_apply (y : FVec Ideal S1024x1024 .f32) (r k : Fin 1024) :
    centred y (ix2 r k) = y (ix2 r k) - SegMean.rowMean (fun c => y (ix2 r c)) := by
  show y (ix2 r k) - broadcastTo S1024x1024 (meanCol y) broadcasts_S1024x1_S1024x1024 (ix2 r k) = _
  rw [RowLayers.broadcastColumn_apply, meanCol_apply]

/-- The scale column broadcast along the rows, at (r, j). -/
private theorem scale_apply (y : FVec Ideal S1024x1024 .f32) (r j : Fin 1024) :
    broadcastTo S1024x1024 (scaleCol y) broadcasts_S1024x1_S1024x1024 (ix2 r j)
      = Ideal.rsqrt (SegMean.rowVar (fun c => y (ix2 r c)) + SegMean.ceps) := by
  rw [RowLayers.broadcastColumn_apply]
  show Ideal.rsqrt (meanCol (mulf (centred y) (centred y)) (ix2 r (0 : Fin 1)) + SegMean.ceps) = _
  rw [meanCol_apply]
  refine congrArg (fun v => Ideal.rsqrt (v + SegMean.ceps)) ?_
  unfold SegMean.rowVar
  show Ideal.div (∑ c : Fin 1024, centred y (ix2 r c) * centred y (ix2 r c)) SegMean.c1024 = _
  refine congrArg (fun s => Ideal.div s SegMean.c1024) (Finset.sum_congr rfl fun c _ => ?_)
  rw [centred_apply]

/-- A vector repeated down the block reads, at (r, j), its entry j. -/
private theorem rowOf_apply (v : FVec Ideal S1024 .f32) (r j : Fin 1024) : rowOf v (ix2 r j) = v (ix1 j) :=
  RowLayers.biasRow_apply shapeCasts_S1024_S1x1024 broadcasts_S1x1024_S1024x1024 v r j

/-- The normalised block at (r, j) is the row function of row r of the pre-activation block. -/
private theorem normBlk_apply (y : FVec Ideal S1024x1024 .f32) (g be : FVec Ideal S1024 .f32) (r j : Fin 1024) :
    normBlk y g be (ix2 r j)
      = SegMean.rowNormK (fun c => y (ix2 r c)) (fun d => g (ix1 d)) (fun d => be (ix1 d)) j := by
  show (centred y (ix2 r j) * broadcastTo S1024x1024 (scaleCol y) broadcasts_S1024x1_S1024x1024 (ix2 r j))
      * rowOf g (ix2 r j) + rowOf be (ix2 r j) = _
  rw [centred_apply, scale_apply, rowOf_apply, rowOf_apply]
  rfl

/-- Row `r` of the normalised block. -/
theorem pay6_apply (x0 x1 : Vec Ideal S1024x1024 .f32) (w : Vec Ideal S1024x1024 .bf16) (bd g be : Vec Ideal S1024 .f32)
    (r j : Fin 1024) :
    k0_pay6 (F := Ideal) x0 w bd x1 g be (ix2 r j)
      = SegMean.rowNormK
          (SegMean.rowPre (fun k => x0 (ix2 r k)) (fun k => x1 (ix2 r k)) (fun k j => w (ix2 k j)) (fun j => bd (ix1 j)))
          (fun j => g (ix1 j)) (fun j => be (ix1 j)) j := by
  unfold k0_pay6
  refine (normBlk_apply _ g be r j).trans ?_
  refine congrArg (fun h => SegMean.rowNormK h (fun j => g (ix1 j)) (fun j => be (ix1 j)) j) (funext fun k => ?_)
  exact pre_apply x0 x1 w bd r k

end Cert.KernelIdeal.SegValue

end
-- ==== Proof.KOneHot.lean ====
/-
  The kernel body's segment arithmetic read at an index, at the exact instance.

  The one-hot tile has a one exactly where the row's segment word is the lane's word; the sums payload adds, at
  (b, j), the products of column b of the one-hot tile with column j of the normalised block, summed over the
  block's rows; the counts payload adds column b's entries; the reset blocks are zero.
-/
import proofs.«422839_j3195455668298_3_alg».proof.Proof.Gen.KernelIdeal.Skeleton
import proofs.«422839_j3195455668298_3_alg».proof.Proof.Spec
import proofs.«422839_j3195455668298_3_alg».proof.Proof.LibRowLayers
import Idealize.ShloMosaic.PureOps.Ideal.Laws

noncomputable section

namespace Cert.KernelIdeal.SegValue

open Idealize.ShloMosaic Idealize.ShloMosaic.TcCoe Idealize.SL.Sem Idealize.ShloMosaic.ValueIdx
open Cert.KernelIdeal Cert.KernelIdeal.Gen

/-- The conversion of a widened equality bit: one where the words agree, zero elsewhere. -/
private theorem sitofp_eqBit (x y : BitVec 32) :
    FloatOps.sitofp (F := Ideal) FTy.f32 (BitVec.setWidth 32 (IntOp.cmpi .eq x y)) = if x = y then (1 : EReal) else 0 := by
  by_cases h : x = y
  · subst h
    rw [if_pos rfl]
    have h1 : IntOp.cmpi .eq x x = 1#1 := by simp [IntOp.cmpi]
    rw [h1]
    show (((BitVec.setWidth 32 1#1).toInt : ℝ) : EReal) = 1
    have h2 : (BitVec.setWidth 32 1#1).toInt = 1 := by decide
    rw [h2]; simp
  · rw [if_neg h]
    have hne : (x == y) = false := beq_eq_false_iff_ne.mpr h
    have h1 : IntOp.cmpi .eq x y = 0#1 := by simp [IntOp.cmpi, hne]
    rw [h1]
    show (((BitVec.setWidth 32 0#1).toInt : ℝ) : EReal) = 0
    have h2 : (BitVec.setWidth 32 0#1).toInt = 0 := by decide
    rw [h2]; simp

/-- The one-hot tile: a one where the row's word is the lane's word. -/
theorem pay1_apply (x2 : Vec Ideal S1024x1 .i32) (r : Fin 1024) (b : Fin 128) :
    k0_pay1 (F := Ideal) x2 (ix2 r b) = if x2 (ix2 r (0 : Fin 1)) = BitVec.ofNat 32 b.val then (1 : EReal) else 0 := by
  unfold k0_pay1
  rw [sitofp_apply, extui_apply]
  show FloatOps.sitofp (F := Ideal) FTy.f32 (BitVec.setWidth 32 (IntOp.cmpi .eq
      (broadcastTo S1024x128 (shapeCast S1024x1 x2 shapeCasts_S1024x1_S1024x1) broadcasts_S1024x1_S1024x128 (ix2 r b))
      (iota Kind.tc S1024x128 32 [1] iota_S1024x128_d1_w32 (ix2 r b)))) = _
  rw [RowLayers.broadcastColumn_apply, shapeCast_self, iota_single_apply, sitofp_eqBit]

/-- The sums payload's product: both operands contracted on their rows. -/
private abbrev segDot := dot_S1024x128_S1024x1024_S128x1024_0_0_1_1_n_n

private theorem segDot_lhs_0 (i : S128x1024.Idx) (q : segDot.contr.Idx) :
    (segDot.lhsIdx i q 0).val = (q ⟨0, by decide⟩).val :=
  segDot.lhsIdx_val_of_single rfl i q

private theorem segDot_lhs_1 (i : S128x1024.Idx) (q : segDot.contr.Idx) :
    (segDot.lhsIdx i q 1).val = (i 0).val := by
  unfold DotDims.lhsIdx
  rw [dif_neg (show ¬(1 : Fin S1024x128.rank) ∈ segDot.lhsBatch by decide), dif_pos (show (1 : Fin S1024x128.rank) ∈ segDot.lhsNonContracting by decide)]
  rfl

private theorem segDot_rhs_0 (i : S128x1024.Idx) (q : segDot.contr.Idx) :
    (segDot.rhsIdx i q 0).val = (q ⟨0, by decide⟩).val :=
  segDot.rhsIdx_val_of_single rfl i q

private theorem segDot_rhs_1 (i : S128x1024.Idx) (q : segDot.contr.Idx) :
    (segDot.rhsIdx i q 1).val = (i 1).val := by
  unfold DotDims.rhsIdx
  rw [dif_neg (show ¬(1 : Fin S1024x1024.rank) ∈ segDot.rhsBatch by decide), dif_pos (show (1 : Fin S1024x1024.rank) ∈ segDot.rhsNonContracting by decide)]
  rfl

/-- The product into the zero splat at (b, j): column b of the left operand against column j of the right, summed
    over the rows. -/
private theorem segDot_apply {φ₁ φ₂ : FTy} (A : FVec Ideal S1024x128 φ₁) (B : FVec Ideal S1024x1024 φ₂) (b : Fin 128) (j : Fin 1024) :
    matmul segDot none A B (constant S128x1024 .f32 0x00000000#32) (ix2 b j) = ∑ r : Fin 1024, A (ix2 r b) * B (ix2 r j) := by
  refine (Ideal.matmul_constant_zero_apply segDot none A B (ix2 b j)).trans ?_
  rw [← Equiv.sum_comp (contrEquiv1 segDot 1024 rfl rfl).symm]
  refine Finset.sum_congr rfl fun r _ => ?_
  have hk := contrEquiv1_symm_val segDot 1024 rfl rfl r
  have el : segDot.lhsIdx (ix2 b j) ((contrEquiv1 segDot 1024 rfl rfl).symm r) = ix2 r b := funext fun a => Fin.ext (by
    match a with
    | ⟨0, _⟩ => exact (segDot_lhs_0 _ _).trans hk
    | ⟨1, _⟩ => exact segDot_lhs_1 _ _)
  have er : segDot.rhsIdx (ix2 b j) ((contrEquiv1 segDot 1024 rfl rfl).symm r) = ix2 r j := funext fun a => Fin.ext (by
    match a with
    | ⟨0, _⟩ => exact (segDot_rhs_0 _ _).trans hk
    | ⟨1, _⟩ => exact segDot_rhs_1 _ _)
  rw [el, er]

/-- The sums payload at (b, j): the previous contents plus the one-hot products summed over the block's rows. -/
theorem pay2_apply (v37 : FVec Ideal S1024x1024 .f32) (x2 : Vec Ideal S1024x1 .i32) (acc : Vec Ideal S1x128x1024 .f32)
    (b : Fin 128) (j : Fin 1024) :
    k0_pay2 (F := Ideal) v37 x2 acc (ix3 (0 : Fin 1) b j)
      = acc (ix3 (0 : Fin 1) b j) + ∑ r : Fin 1024, k0_pay1 (F := Ideal) x2 (ix2 r b) * v37 (ix2 r j) := by
  unfold k0_pay2
  rw [shapeCast_ab_1ab_apply, addf_apply, shapeCast_1ab_ab_apply, segDot_apply]
  rfl

/-- Putting row r back into the reduced index b of a reduction along the rows gives (r, b). -/
private theorem lift_rows (hred : S1024x128.Reduces [0] S128) (b : Fin 128) (r : Fin (S1024x128.size 0)) :
    hred.lift (ix1 b) r = ix2 (⟨r.val, r.isLt⟩ : Fin 1024) b := by
  funext a; apply Fin.ext
  fin_cases a <;> rfl

/-- A sum along the rows from the zero word, at lane b: the column's sum. -/
private theorem colSum_apply (hred : S1024x128.Reduces [0] S128) (hfmt : FKind.Formats FTy.f32)
    (hacc : (0x00000000#32 : BitVec FTy.f32.bits) = FKind.add.neutral .f32 hfmt)
    (x : FVec Ideal S1024x128 .f32) (b : Fin 128) :
    multiReduction .add [0] S128 x 0x00000000#32 hred hfmt hacc (ix1 b) = ∑ r : Fin 1024, x (ix2 r b) := by
  rw [Ideal.multiReduction_add_single]
  refine Finset.sum_congr rfl fun r _ => ?_
  rw [lift_rows]; rfl

/-- The counts payload at lane b: the previous contents plus the one-hot column's sum. -/
theorem pay3_apply (x2 : Vec Ideal S1024x1 .i32) (acc : Vec Ideal S1x1x128 .f32) (b : Fin 128) :
    k0_pay3 (F := Ideal) x2 acc (ix3 (0 : Fin 1) (0 : Fin 1) b)
      = acc (ix3 (0 : Fin 1) (0 : Fin 1) b) + ∑ r : Fin 1024, k0_pay1 (F := Ideal) x2 (ix2 r b) := by
  unfold k0_pay3
  rw [shapeCast_ab_1ab_apply, addf_apply, shapeCast_1ab_ab_apply, shapeCast_a_1a_apply]
  exact congrArg (acc (ix3 (0 : Fin 1) (0 : Fin 1) b) + ·)
    (colSum_apply reduces_S1024x128_S128 _ _ (k0_pay1 (F := Ideal) x2) b)

/-- The reset blocks are zero. -/
theorem pay4_apply (i : S1x128x1024.Idx) : k0_pay4 (F := Ideal) i = 0 := by
  unfold k0_pay4
  show Ideal.ofBits .f32 0x00000000#32 = 0
  exact Ideal.ofBits_zero_f32

theorem pay5_apply (i : S1x1x128.Idx) : k0_pay5 (F := Ideal) i = 0 := by
  unfold k0_pay5
  show Ideal.ofBits .f32 0x00000000#32 = 0
  exact Ideal.ofBits_zero_f32

end Cert.KernelIdeal.SegValue

end
-- ==== Proof.KBlocks.lean ====
/-
  The blocks the region reads, as rows of the argument arrays.

  Point `t` reads token rows `1024 t … 1024 t + 1023` of the two activations and of the segment words (the words
  reshaped to a column on the host first), and at every point the whole dense weights (narrowed on the host first:
  the identity at the exact instance) and the three vectors.
-/
import proofs.«422839_j3195455668298_3_alg».proof.Proof.KDefs
import Idealize.ShloMosaic.Lib.StableHlo.Run
import Idealize.ShloMosaic.Lib.Pipeline.Value

noncomputable section

namespace Cert.KernelIdeal.SegValue

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

theorem blk0_apply (c : Dev nD) (t : Fin cfg0.N) (r j : Fin 1024) (T : Fin 65536) (hT : T.val = t.val * 1024 + r.val) :
    blk0 m c t (ix2 r j) = arg0 m c (ix2 T j) := by
  have hi : ∀ t : Fin cfg0.N, win0_0.index t 0 = t.val ∧ win0_0.index t 1 = 0 :=
    (by decide +kernel : ∀ t : Fin grid0.N, _)
  unfold blk0 iblk
  rw [View.read_apply]
  show V m c main_arg0 _ = _
  rw [V_main_arg0]
  congr 1
  funext a
  apply Fin.ext
  match a with
  | ⟨0, _⟩ => show win0_0.index t 0 * 1024 + 1 * r.val = T.val; rw [(hi t).1]; omega
  | ⟨1, _⟩ => show win0_0.index t 1 * 1024 + 1 * j.val = j.val; rw [(hi t).2]; omega

theorem blk1_apply (c : Dev nD) (t : Fin cfg0.N) (r j : Fin 1024) (T : Fin 65536) (hT : T.val = t.val * 1024 + r.val) :
    blk1 m c t (ix2 r j) = arg1 m c (ix2 T j) := by
  have hi : ∀ t : Fin cfg0.N, win0_1.index t 0 = t.val ∧ win0_1.index t 1 = 0 :=
    (by decide +kernel : ∀ t : Fin grid0.N, _)
  unfold blk1 iblk
  rw [View.read_apply]
  show V m c main_arg1 _ = _
  rw [V_main_arg1]
  congr 1
  funext a
  apply Fin.ext
  match a with
  | ⟨0, _⟩ => show win0_1.index t 0 * 1024 + 1 * r.val = T.val; rw [(hi t).1]; omega
  | ⟨1, _⟩ => show win0_1.index t 1 * 1024 + 1 * j.val = j.val; rw [(hi t).2]; omega

/-- The segment words as the region finds them: the host's reshape of the word vector to a column. -/
private theorem V_main_v1 (c : Dev nD) :
    (V m c main_v1 : S65536x1.Idx → BitVec 32) = shapeCast S65536x1 (arg8 m c) shapeCasts_S65536_S65536x1 := by
  show StableHlo.after hostOps0 (fun b => m (c, b)) (Proc.devRef .tc main_v1) = _
  after_results
  rfl

theorem blk2_apply (c : Dev nD) (t : Fin cfg0.N) (r : Fin 1024) (T : Fin 65536) (hT : T.val = t.val * 1024 + r.val) :
    blk2 m c t (ix2 r (0 : Fin 1)) = arg8 m c (ix1 T) := by
  have hi : ∀ t : Fin cfg0.N, win0_2.index t 0 = t.val ∧ win0_2.index t 1 = 0 :=
    (by decide +kernel : ∀ t : Fin grid0.N, _)
  unfold blk2 iblk
  rw [View.read_apply]
  show (V m c main_v1 : S65536x1.Idx → BitVec 32) _ = _
  rw [V_main_v1]
  refine shapeCast_apply _ _ _ (ix1 T) ?_
  rw [Shape.rowMajor_val_one, Shape.rowMajor_val_two]
  show T.val = (win0_2.index t 0 * 1024 + 1 * r.val) * 1 + (win0_2.index t 1 * 1 + 1 * 0)
  rw [(hi t).1, (hi t).2]; omega

theorem blk4_apply (c : Dev nD) (t : Fin cfg0.N) (j : Fin 1024) : blk4 m c t (ix1 j) = arg3 m c (ix1 j) := by
  have hi : ∀ t : Fin cfg0.N, win0_4.index t 0 = 0 :=
    (by decide +kernel : ∀ t : Fin grid0.N, _)
  unfold blk4 iblk
  rw [View.read_apply]
  show V m c main_arg3 _ = _
  rw [V_main_arg3]
  congr 1
  funext a
  apply Fin.ext
  match a with
  | ⟨0, _⟩ => show win0_4.index t 0 * 1024 + 1 * j.val = j.val; rw [hi t]; omega

theorem blk5_apply (c : Dev nD) (t : Fin cfg0.N) (j : Fin 1024) : blk5 m c t (ix1 j) = arg4 m c (ix1 j) := by
  have hi : ∀ t : Fin cfg0.N, win0_5.index t 0 = 0 :=
    (by decide +kernel : ∀ t : Fin grid0.N, _)
  unfold blk5 iblk
  rw [View.read_apply]
  show V m c main_arg4 _ = _
  rw [V_main_arg4]
  congr 1
  funext a
  apply Fin.ext
  match a with
  | ⟨0, _⟩ => show win0_5.index t 0 * 1024 + 1 * j.val = j.val; rw [hi t]; omega

theorem blk6_apply (c : Dev nD) (t : Fin cfg0.N) (j : Fin 1024) : blk6 m c t (ix1 j) = arg5 m c (ix1 j) := by
  have hi : ∀ t : Fin cfg0.N, win0_6.index t 0 = 0 :=
    (by decide +kernel : ∀ t : Fin grid0.N, _)
  unfold blk6 iblk
  rw [View.read_apply]
  show V m c main_arg5 _ = _
  rw [V_main_arg5]
  congr 1
  funext a
  apply Fin.ext
  match a with
  | ⟨0, _⟩ => show win0_6.index t 0 * 1024 + 1 * j.val = j.val; rw [hi t]; omega

/-- The dense weights as the region finds them: the host's narrowing of the weights. -/
private theorem V_main_v0 (m : (ℓ : Loc nD τ sig) → Buf (Elt Ideal) ℓ) (c : Dev nD) :
    (V m c main_v0 : S1024x1024.Idx → EReal) = truncf .bf16 (arg2 m c) bitsLt_bf16_f32 := by
  show StableHlo.after hostOps0 (fun b => m (c, b)) (Proc.devRef .tc main_v0) = _
  after_results

/-- The dense weights' block, at the exact instance (the host's narrowing is the identity there). -/
theorem blk3_apply (m : (ℓ : Loc nD τ sig) → Buf (Elt Ideal) ℓ) (c : Dev nD) (t : Fin cfg0.N) (k j : Fin 1024) :
    blk3 m c t (ix2 k j) = arg2 m c (ix2 k j) := by
  have hi : ∀ t : Fin cfg0.N, win0_3.index t 0 = 0 ∧ win0_3.index t 1 = 0 :=
    (by decide +kernel : ∀ t : Fin grid0.N, _)
  unfold blk3 iblk
  rw [View.read_apply]
  show (V m c main_v0 : S1024x1024.Idx → EReal) _ = _
  rw [V_main_v0, truncf_apply]
  congr 1
  funext a
  apply Fin.ext
  match a with
  | ⟨0, _⟩ => show win0_3.index t 0 * 1024 + 1 * k.val = k.val; rw [(hi t).1]; omega
  | ⟨1, _⟩ => show win0_3.index t 1 * 1024 + 1 * j.val = j.val; rw [(hi t).2]; omega

end Cert.KernelIdeal.SegValue

end
-- ==== Proof.KSum.lean ====
/-
  The accumulators, read at an index at the exact instance, are sums over a half's token rows.

  After step `i` of half `c'` the sums block holds, at (b, j), the sum over the steps so far and the block rows of
  the one-hot entry times the normalised entry; the counts block the sum of the one-hot entries. At the last step
  these are sums over all 32 steps.
-/
import proofs.«422839_j3195455668298_3_alg».proof.Proof.KDefs
import proofs.«422839_j3195455668298_3_alg».proof.Proof.KPayload
import proofs.«422839_j3195455668298_3_alg».proof.Proof.KOneHot
import proofs.«422839_j3195455668298_3_alg».proof.Proof.KBlocks
import Mathlib.Algebra.BigOperators.Fin

noncomputable section

namespace Cert.KernelIdeal.SegValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ### The two point lemmas: a grid point's block entries are the token rows' entries. -/

/-- Row `r` of the normalised block of step `i` of half `c'` is the normalised row of token `grow c' i r`. -/
private theorem hn_apply (c : Dev nD) (c' : Fin 2) (i : Fin 32) (r j : Fin 1024) :
    hnBlk m c (pt c' i) (ix2 r j) = yK m c (SegMean.grow c' i r) j := by
  have hT : (SegMean.grow c' i r).val = (pt c' i).val * 1024 + r.val := rfl
  have h0 : (fun k : Fin 1024 => blk0 m c (pt c' i) (ix2 r k))
      = (fun k : Fin 1024 => arg0 m c (ix2 (SegMean.grow c' i r) k)) := by
    funext k; exact blk0_apply m c (pt c' i) r k (SegMean.grow c' i r) hT
  have h1 : (fun k : Fin 1024 => blk1 m c (pt c' i) (ix2 r k))
      = (fun k : Fin 1024 => arg1 m c (ix2 (SegMean.grow c' i r) k)) := by
    funext k; exact blk1_apply m c (pt c' i) r k (SegMean.grow c' i r) hT
  have h3 : (fun k j : Fin 1024 => blk3 m c (pt c' i) (ix2 k j))
      = (fun k j : Fin 1024 => arg2 m c (ix2 k j)) := by
    funext k j; exact blk3_apply m c (pt c' i) k j
  have h4 : (fun j : Fin 1024 => blk4 m c (pt c' i) (ix1 j)) = (fun j : Fin 1024 => arg3 m c (ix1 j)) := by
    funext j; exact blk4_apply m c (pt c' i) j
  have h5 : (fun j : Fin 1024 => blk5 m c (pt c' i) (ix1 j)) = (fun j : Fin 1024 => arg4 m c (ix1 j)) := by
    funext j; exact blk5_apply m c (pt c' i) j
  have h6 : (fun j : Fin 1024 => blk6 m c (pt c' i) (ix1 j)) = (fun j : Fin 1024 => arg5 m c (ix1 j)) := by
    funext j; exact blk6_apply m c (pt c' i) j
  unfold hnBlk yK
  rw [pay6_apply, h0, h1, h3, h4, h5, h6]

/-- The one-hot tile of step `i` of half `c'` at row `r` is the one-hot entry of token `grow c' i r`. -/
private theorem oh_apply (c : Dev nD) (c' : Fin 2) (i : Fin 32) (r : Fin 1024) (b : Fin 128) :
    k0_pay1 (F := Ideal) (blk2 m c (pt c' i)) (ix2 r b) = oh m c (SegMean.grow c' i r) b := by
  rw [pay1_apply, blk2_apply m c (pt c' i) r (SegMean.grow c' i r) rfl]
  rfl

/-! ### The accumulators' recursion, read at an index. -/

private theorem accS_zero (c : Dev nD) (h : 0 < cfg0.N) :
    accS m c 0 h = k0_pay2 (hnBlk m c ⟨0, h⟩) (blk2 m c ⟨0, h⟩) (k0_pay4 (F := Ideal)) := rfl

private theorem accS_succ (c : Dev nD) (n : ℕ) (h : n + 1 < cfg0.N) :
    accS m c (n + 1) h
      = if (n + 1) % 32 = 0 then k0_pay2 (hnBlk m c ⟨n + 1, h⟩) (blk2 m c ⟨n + 1, h⟩) (k0_pay4 (F := Ideal))
        else k0_pay2 (hnBlk m c ⟨n + 1, h⟩) (blk2 m c ⟨n + 1, h⟩) (accS m c n (Nat.lt_of_succ_lt h)) := rfl

private theorem accC_zero (c : Dev nD) (h : 0 < cfg0.N) :
    accC m c 0 h = k0_pay3 (blk2 m c ⟨0, h⟩) (k0_pay5 (F := Ideal)) := rfl

private theorem accC_succ (c : Dev nD) (n : ℕ) (h : n + 1 < cfg0.N) :
    accC m c (n + 1) h
      = if (n + 1) % 32 = 0 then k0_pay3 (blk2 m c ⟨n + 1, h⟩) (k0_pay5 (F := Ideal))
        else k0_pay3 (blk2 m c ⟨n + 1, h⟩) (accC m c n (Nat.lt_of_succ_lt h)) := rfl

/-- At a half's first step the sums block is the point's own one-hot products. -/
private theorem accS_reset (c : Dev nD) (n : ℕ) (h : n < cfg0.N) (hn : n % 32 = 0) (b : Fin 128) (j : Fin 1024) :
    accS m c n h (ix3 (0 : Fin 1) b j)
      = ∑ r : Fin 1024, k0_pay1 (F := Ideal) (blk2 m c ⟨n, h⟩) (ix2 r b) * hnBlk m c ⟨n, h⟩ (ix2 r j) := by
  cases n with
  | zero => rw [accS_zero, pay2_apply, pay4_apply, zero_add]
  | succ n => rw [accS_succ, if_pos hn, pay2_apply, pay4_apply, zero_add]

/-- At a later step the sums block is the previous contents plus the point's one-hot products. -/
private theorem accS_cont (c : Dev nD) (n n' : ℕ) (h : n' < cfg0.N) (hs : n' = n + 1) (hn : n' % 32 ≠ 0)
    (b : Fin 128) (j : Fin 1024) :
    accS m c n' h (ix3 (0 : Fin 1) b j)
      = accS m c n (by omega) (ix3 (0 : Fin 1) b j)
        + ∑ r : Fin 1024, k0_pay1 (F := Ideal) (blk2 m c ⟨n', h⟩) (ix2 r b) * hnBlk m c ⟨n', h⟩ (ix2 r j) := by
  subst hs
  rw [accS_succ, if_neg hn, pay2_apply]

private theorem accC_reset (c : Dev nD) (n : ℕ) (h : n < cfg0.N) (hn : n % 32 = 0) (b : Fin 128) :
    accC m c n h (ix3 (0 : Fin 1) (0 : Fin 1) b)
      = ∑ r : Fin 1024, k0_pay1 (F := Ideal) (blk2 m c ⟨n, h⟩) (ix2 r b) := by
  cases n with
  | zero => rw [accC_zero, pay3_apply, pay5_apply, zero_add]
  | succ n => rw [accC_succ, if_pos hn, pay3_apply, pay5_apply, zero_add]

private theorem accC_cont (c : Dev nD) (n n' : ℕ) (h : n' < cfg0.N) (hs : n' = n + 1) (hn : n' % 32 ≠ 0)
    (b : Fin 128) :
    accC m c n' h (ix3 (0 : Fin 1) (0 : Fin 1) b)
      = accC m c n (by omega) (ix3 (0 : Fin 1) (0 : Fin 1) b)
        + ∑ r : Fin 1024, k0_pay1 (F := Ideal) (blk2 m c ⟨n', h⟩) (ix2 r b) := by
  subst hs
  rw [accC_succ, if_neg hn, pay3_apply]

/-! ### One step's contribution, as a function of the step's number. -/

/-- Step `n`'s contribution to the sums at (b, j) (zero past the last step). -/
private def stepS (c : Dev nD) (c' : Fin 2) (b : Fin 128) (j : Fin 1024) (n : ℕ) : EReal :=
  if h : n < 32 then
    ∑ r : Fin 1024, oh m c (SegMean.grow c' ⟨n, h⟩ r) b * yK m c (SegMean.grow c' ⟨n, h⟩ r) j
  else 0

/-- Step `n`'s contribution to the counts at lane b (zero past the last step). -/
private def stepC (c : Dev nD) (c' : Fin 2) (b : Fin 128) (n : ℕ) : EReal :=
  if h : n < 32 then ∑ r : Fin 1024, oh m c (SegMean.grow c' ⟨n, h⟩ r) b else 0

private theorem pointS (c : Dev nD) (c' : Fin 2) (k : ℕ) (hk : k < 32) (h : c'.val * 32 + k < cfg0.N)
    (b : Fin 128) (j : Fin 1024) :
    ∑ r : Fin 1024, k0_pay1 (F := Ideal) (blk2 m c ⟨c'.val * 32 + k, h⟩) (ix2 r b)
        * hnBlk m c ⟨c'.val * 32 + k, h⟩ (ix2 r j)
      = stepS m c c' b j k := by
  unfold stepS
  rw [dif_pos hk]
  refine Finset.sum_congr rfl (fun r _ => ?_)
  rw [← oh_apply m c c' ⟨k, hk⟩ r b, ← hn_apply m c c' ⟨k, hk⟩ r j]

private theorem pointC (c : Dev nD) (c' : Fin 2) (k : ℕ) (hk : k < 32) (h : c'.val * 32 + k < cfg0.N)
    (b : Fin 128) :
    ∑ r : Fin 1024, k0_pay1 (F := Ideal) (blk2 m c ⟨c'.val * 32 + k, h⟩) (ix2 r b) = stepC m c c' b k := by
  unfold stepC
  rw [dif_pos hk]
  refine Finset.sum_congr rfl (fun r _ => ?_)
  rw [← oh_apply m c c' ⟨k, hk⟩ r b]

/-! ### The invariant: after step `k` of a half the blocks hold the contributions of steps `0 … k`. -/

private theorem accS_upto (c : Dev nD) (c' : Fin 2) (b : Fin 128) (j : Fin 1024) :
    ∀ (k : ℕ) (hk : k < 32) (h : c'.val * 32 + k < cfg0.N),
      accS m c (c'.val * 32 + k) h (ix3 (0 : Fin 1) b j) = ∑ n ∈ Finset.range (k + 1), stepS m c c' b j n
  | 0, hk, h => by
    rw [accS_reset m c _ h (by have := c'.isLt; omega) b j, pointS m c c' 0 hk h b j,
      Finset.sum_range_succ, Finset.sum_range_zero, zero_add]
  | k + 1, hk, h => by
    have ih := accS_upto c c' b j k (by omega) (Nat.lt_of_succ_lt h)
    rw [accS_cont m c (c'.val * 32 + k) (c'.val * 32 + (k + 1)) h rfl (by omega) b j, ih,
      pointS m c c' (k + 1) hk h b j, ← Finset.sum_range_succ]

private theorem accC_upto (c : Dev nD) (c' : Fin 2) (b : Fin 128) :
    ∀ (k : ℕ) (hk : k < 32) (h : c'.val * 32 + k < cfg0.N),
      accC m c (c'.val * 32 + k) h (ix3 (0 : Fin 1) (0 : Fin 1) b) = ∑ n ∈ Finset.range (k + 1), stepC m c c' b n
  | 0, hk, h => by
    rw [accC_reset m c _ h (by have := c'.isLt; omega) b, pointC m c c' 0 hk h b,
      Finset.sum_range_succ, Finset.sum_range_zero, zero_add]
  | k + 1, hk, h => by
    have ih := accC_upto c c' b k (by omega) (Nat.lt_of_succ_lt h)
    rw [accC_cont m c (c'.val * 32 + k) (c'.val * 32 + (k + 1)) h rfl (by omega) b, ih,
      pointC m c c' (k + 1) hk h b, ← Finset.sum_range_succ]

/-- The sums accumulator after a half's last step. -/
theorem accS_last (c : Dev nD) (c' : Fin 2) (b : Fin 128) (j : Fin 1024) :
    accS m c (c'.val * 32 + 31) (lt_N c' 31) (ix3 (0 : Fin 1) b j)
      = ∑ i : Fin 32, ∑ r : Fin 1024, oh m c (SegMean.grow c' i r) b * yK m c (SegMean.grow c' i r) j := by
  rw [accS_upto m c c' b j 31 (by omega) (lt_N c' 31), show (31 + 1 : ℕ) = 32 from rfl,
    ← Fin.sum_univ_eq_sum_range]
  refine Finset.sum_congr rfl (fun i _ => ?_)
  unfold stepS
  rw [dif_pos i.isLt]

/-- The counts accumulator after a half's last step. -/
theorem accC_last (c : Dev nD) (c' : Fin 2) (b : Fin 128) :
    accC m c (c'.val * 32 + 31) (lt_N c' 31) (ix3 (0 : Fin 1) (0 : Fin 1) b)
      = ∑ i : Fin 32, ∑ r : Fin 1024, oh m c (SegMean.grow c' i r) b := by
  rw [accC_upto m c c' b 31 (by omega) (lt_N c' 31), show (31 + 1 : ℕ) = 32 from rfl,
    ← Fin.sum_univ_eq_sum_range]
  refine Finset.sum_congr rfl (fun i _ => ?_)
  unfold stepC
  rw [dif_pos i.isLt]

end Cert.KernelIdeal.SegValue

end
-- ==== Proof.KTail.lean ====
/-
  The kernel's program after its region: the two halves added, the first 64 segments kept, the counts guarded
  against zero, and then the host chain shared with the reference.
-/
import proofs.«422839_j3195455668298_3_alg».proof.Proof.KDefs
import Idealize.ShloMosaic.Lib.Pipeline.Value
import Idealize.ShloMosaic.Lib.StableHlo.Run
import Idealize.ShloMosaic.PureOps.Ideal.Laws
import Idealize.ShloMosaic.Lib.ValueIdx
import Idealize.ShloMosaic.Lib.ValueLayout
import Idealize.ShloMosaic.Lib.IdealHost

noncomputable section

namespace Cert.KernelIdeal.SegValue

open Idealize.ShloMosaic Idealize.ShloMosaic.TcCoe Idealize.SL.Sem Idealize.ShloMosaic.ValueIdx
open Cert.KernelIdeal Cert.KernelIdeal.Gen

variable {F : FTy → Type} [FloatOps F]

/-- The per-segment sums: the two halves of the sums array added, segments 0 … 63 kept. -/
def sumsOf (s2 : FVec F S2x128x1024 .f32) : FVec F S64x1024 .f32 :=
  extractStridedSlice S64x1024 ![0, 0]
    (Host.reduceAdd s2 (constant S_ .f32 0x00000000#32) reducesTo_S2x128x1024_S128x1024_d0 h_S_) slices_S128x1024_S64x1024_0_0

/-- The per-segment counts before the guard: the two halves added, laid out as a vector, segments 0 … 63 kept. -/
def cntsRaw (c2 : FVec F S2x1x128 .f32) : FVec F S64 .f32 :=
  extractStridedSlice S64 ![0]
    (shapeCast S128 (Host.reduceAdd c2 (constant S_ .f32 0x00000000#32) reducesTo_S2x1x128_S1x128_d0 h_S_) shapeCasts_S1x128_S128)
    slices_S128_S64_0

/-- The guarded counts: a count that is not positive is replaced by one. -/
def cntsOf (c2 : FVec F S2x1x128 .f32) : FVec F S64 .f32 :=
  select (cmpf .ogt (cntsRaw c2) (broadcastInDim S64 ![] bcast_S_S64 (constant S_ .f32 0x00000000#32))) (cntsRaw c2)
    (broadcastInDim S64 ![] bcast_S_S64 (constant S_ .f32 0x3F800000#32))

/-- A slice at offset zero of a matrix reads the same coordinates. -/
private theorem slice_rows {α : Type} (x : S128x1024.Idx → α) (b : Fin 64) (j : Fin 1024) :
    extractStridedSlice S64x1024 ![0, 0] x slices_S128x1024_S64x1024_0_0 (ix2 b j) = x (ix2 (SegMean.lane b) j) := by
  unfold extractStridedSlice
  congr 1
  funext a
  apply Fin.ext
  match a with
  | ⟨0, _⟩ => exact Nat.zero_add _
  | ⟨1, _⟩ => exact Nat.zero_add _

/-- A slice at offset zero of a vector reads the same coordinate. -/
private theorem slice_vec {α : Type} (x : S128.Idx → α) (b : Fin 64) :
    extractStridedSlice S64 ![0] x slices_S128_S64_0 (ix1 b) = x (ix1 (SegMean.lane b)) := by
  unfold extractStridedSlice
  congr 1
  funext a
  apply Fin.ext
  match a with
  | ⟨0, _⟩ => exact Nat.zero_add _

/-- The index a sum along the leading axis of the sums array visits: the half in front of the kept coordinates. -/
private theorem lift_sums (h : Shape.Reduces S2x128x1024 [0] S128x1024) (l : Fin 128) (j : Fin 1024) (k : Fin 2) :
    h.lift (ix2 l j) k = ix3 k l j := by
  funext a
  match a with
  | ⟨0, _⟩ => exact Fin.ext rfl
  | ⟨1, _⟩ => exact Fin.ext rfl
  | ⟨2, _⟩ => exact Fin.ext rfl

/-- The same for the counts array. -/
private theorem lift_cnts (h : Shape.Reduces S2x1x128 [0] S1x128) (u : Fin 1) (l : Fin 128) (k : Fin 2) :
    h.lift (ix2 u l) k = ix3 k u l := by
  funext a
  match a with
  | ⟨0, _⟩ => exact Fin.ext rfl
  | ⟨1, _⟩ => exact Fin.ext rfl
  | ⟨2, _⟩ => exact Fin.ext rfl

/-- The zero word the sums start from is the number zero. -/
private theorem init_zero : constant (F := Ideal) S_ .f32 0x00000000#32 (Shape.Idx.first h_S_) = 0 :=
  (constant_apply _ _).trans Ideal.ofBits_zero_f32

theorem sumsOf_apply (s2 : FVec Ideal S2x128x1024 .f32) (b : Fin 64) (j : Fin 1024) :
    sumsOf s2 (ix2 b j) = s2 (ix3 (0 : Fin 2) (SegMean.lane b) j) + s2 (ix3 (1 : Fin 2) (SegMean.lane b) j) := by
  have hr : Shape.Reduces S2x128x1024 [0] S128x1024 := by decide
  unfold sumsOf
  refine (slice_rows _ b j).trans ?_
  refine (hostReduceAdd_apply (φ := .f32) s2 _ reducesTo_S2x128x1024_S128x1024_d0 h_S_ _).trans ?_
  refine (Ideal.hostReduceAdd_single reducesTo_S2x128x1024_S128x1024_d0 hr s2 _ _).trans ?_
  rw [init_zero, zero_add]
  refine (Fin.sum_univ_two _).trans ?_
  rw [lift_sums hr, lift_sums hr]

theorem cntsRaw_apply (c2 : FVec Ideal S2x1x128 .f32) (b : Fin 64) :
    cntsRaw c2 (ix1 b) = c2 (ix3 (0 : Fin 2) (0 : Fin 1) (SegMean.lane b)) + c2 (ix3 (1 : Fin 2) (0 : Fin 1) (SegMean.lane b)) := by
  have hr : Shape.Reduces S2x1x128 [0] S1x128 := by decide
  unfold cntsRaw
  refine (slice_vec _ b).trans ?_
  refine (shapeCast_1a_a_apply _ shapeCasts_S1x128_S128 (SegMean.lane b)).trans ?_
  refine (hostReduceAdd_apply (φ := .f32) c2 _ reducesTo_S2x1x128_S1x128_d0 h_S_ _).trans ?_
  refine (Ideal.hostReduceAdd_single reducesTo_S2x1x128_S1x128_d0 hr c2 _ _).trans ?_
  rw [init_zero, zero_add]
  refine (Fin.sum_univ_two _).trans ?_
  rw [lift_cnts hr, lift_cnts hr]

theorem cntsOf_apply_of_pos (c2 : FVec Ideal S2x1x128 .f32) (b : Fin 64) (h : 0 < cntsRaw c2 (ix1 b)) :
    cntsOf c2 (ix1 b) = cntsRaw c2 (ix1 b) := by
  have hc : Ideal.cmp .ogt (cntsRaw c2 (ix1 b)) 0 = 1#1 := by
    show BitVec.ofBool (decide (0 < cntsRaw c2 (ix1 b))) = 1#1
    rw [decide_eq_true h]
    rfl
  unfold cntsOf
  rw [select_apply, cmpf_apply, Ideal.cmpf_def, broadcastInDim_scalar_apply, constant_apply, Ideal.ofBits_zero_f32, hc,
    select_one]

variable (m : (ℓ : Loc nD τ sig) → Buf (Elt F) ℓ) (ρ : Dev nD → PrngReg)

open Idealize.ShloMosaic.StableHlo in
set_option maxHeartbeats 1000000 in
/-- The result buffer after the program's last operations: the shared host chain of the per-segment sums and the
    guarded counts, over the two arrays the region leaves and the two arguments the chain reads. -/
private theorem res (c : Dev nD) :
    Pipeline.afterTail₀ cfgs (dats m) 0 (V0 m) [hostOps1, hostOps1_1, hostOps1_2] c main_v17
      = SegMean.tail (sumsOf (sums2 m c)) (cntsOf (cnts2 m c)) (arg6 m c) (arg7 m c) := by
  have e7 : Pipeline.withArrays (cfgs 0).spec c (V0 m c) (fun w => (dats m 0 c).arrAt w (cfgs 0).N)
      (Proc.devRef .tc main_v2_0) = sums2 m c :=
    Pipeline.withArrays_arr spec0 launch0.win.arr_inj c _ _ 7
  have e8 : Pipeline.withArrays (cfgs 0).spec c (V0 m c) (fun w => (dats m 0 c).arrAt w (cfgs 0).N)
      (Proc.devRef .tc main_v2_1) = cnts2 m c :=
    Pipeline.withArrays_arr spec0 launch0.win.arr_inj c _ _ 8
  have e6 : Pipeline.withArrays (cfgs 0).spec c (V0 m c) (fun w => (dats m 0 c).arrAt w (cfgs 0).N)
      (Proc.devRef .tc main_arg6) = arg6 m c :=
    (Pipeline.withArrays_of_ne _ c (V0 m c) _ main_arg6
      (by exact (by decide : ∀ w, Pipeline.arrRef spec0 w ≠ main_arg6))).trans (V_main_arg6 m c)
  have e9 : Pipeline.withArrays (cfgs 0).spec c (V0 m c) (fun w => (dats m 0 c).arrAt w (cfgs 0).N)
      (Proc.devRef .tc main_arg7) = arg7 m c :=
    (Pipeline.withArrays_of_ne _ c (V0 m c) _ main_arg7
      (by exact (by decide : ∀ w, Pipeline.arrRef spec0 w ≠ main_arg7))).trans (V_main_arg7 m c)
  unfold Pipeline.afterTail₀
  generalize Pipeline.withArrays (cfgs 0).spec c (V0 m c) (fun w => (dats m 0 c).arrAt w (cfgs 0).N) = W at e7 e8 e6 e9 ⊢
  show StableHlo.after (hostOps1 ++ (hostOps1_1 ++ (hostOps1_2 ++ []))) W (Proc.devRef .tc main_v17) = _
  simp only [hostOps1, hostOps1_1, hostOps1_2, List.cons_append, List.nil_append, List.append_nil]
  after_results_simp
  rw [e7, e8, e6, e9]
  generalize sums2 m c = s2
  generalize cnts2 m c = c2
  generalize arg6 m c = wo
  generalize arg7 m c = bo
  rfl

/-- The run, read: the result is the shared host chain of the per-segment sums and guarded counts; the arguments are
    unchanged. -/
theorem run : θ_run defs (onTc (τ := τ) (main (F := F))) ⟨m, fun _ => 0, ρ⟩ (fun r => ∀ c : Dev nD,
      r.2.mem ((c.tc : Thread nD τ).loc main_v17)
        = SegMean.tail (sumsOf (sums2 m c)) (cntsOf (cnts2 m c)) (arg6 m c) (arg7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun _ h c =>
    ⟨((h c).2 main_v17 (Pipeline.mem_restRefs_of main_v17 (by decide) (by decide))).trans (res m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.SegValue

end
-- ==== Proof.SegAlgebra.lean ====
/-
  Segment sums over the extended reals: the kernel's one-hot products, accumulated block by block over the two core
  halves, add up to the sum over the segment's tokens.
-/
import proofs.«422839_j3195455668298_3_alg».proof.Proof.Spec

noncomputable section

namespace SegMean

open Idealize.ShloMosaic

/-- The block coordinates of a token row: `t = (c' * 32 + i) * 1024 + r` with `c' = t / 32768`,
    `i = (t / 1024) % 32`, `r = t % 1024`; this is a bijection onto the 65536 token rows. -/
private def growEquiv : Fin 2 × Fin 32 × Fin 1024 ≃ Fin 65536 where
  toFun p := grow p.1 p.2.1 p.2.2
  invFun t :=
    (⟨t.val / 32768, by have := t.isLt; omega⟩,
     ⟨(t.val / 1024) % 32, by omega⟩,
     ⟨t.val % 1024, by omega⟩)
  left_inv := by
    rintro ⟨c, i, r⟩
    have hc := c.isLt
    have hi := i.isLt
    have hr := r.isLt
    simp only [grow]
    refine Prod.ext (Fin.ext ?_) (Prod.ext (Fin.ext ?_) (Fin.ext ?_)) <;> simp only <;> omega
  right_inv := by
    intro t
    have ht := t.isLt
    simp only [grow]
    refine Fin.ext ?_
    simp only
    omega

/-- Every token row is row `r` of exactly one grid point's block. -/
theorem sum_grow {M : Type*} [AddCommMonoid M] (f : Fin 65536 → M) :
    ∑ c' : Fin 2, ∑ i : Fin 32, ∑ r : Fin 1024, f (grow c' i r) = ∑ t : Fin 65536, f t := by
  rw [← Fintype.sum_equiv growEquiv (fun p => f (grow p.1 p.2.1 p.2.2)) f (fun _ => rfl)]
  rw [Fintype.sum_prod_type]
  refine Fintype.sum_congr _ _ (fun c => ?_)
  rw [Fintype.sum_prod_type]

/-- A word equals lane `b`'s word exactly when, read signed, it is `b` (for a lane below 64). -/
theorem word_eq_iff_toInt (w : BitVec 32) (b : Fin 64) : w = BitVec.ofNat 32 b.val ↔ w.toInt = (b.val : ℤ) := by
  have hb := b.isLt
  have hw := w.isLt
  have hmod : b.val % 2 ^ 32 = b.val := Nat.mod_eq_of_lt (by omega)
  rw [← BitVec.toNat_inj, BitVec.toNat_ofNat, hmod, BitVec.toInt_eq_toNat_cond]
  split <;> omega

/-- The two core halves' accumulated one-hot products are the segment sum. -/
theorem onehot_sum_eq_segSum (ids : Fin 65536 → BitVec 32) (y : Fin 65536 → Fin 1024 → EReal) (b : Fin 64) (j : Fin 1024) :
    (∑ i : Fin 32, ∑ r : Fin 1024, (if ids (grow 0 i r) = BitVec.ofNat 32 b.val then (1 : EReal) else 0) * y (grow 0 i r) j)
      + (∑ i : Fin 32, ∑ r : Fin 1024, (if ids (grow 1 i r) = BitVec.ofNat 32 b.val then (1 : EReal) else 0) * y (grow 1 i r) j)
    = segSum ids y b j := by
  unfold segSum
  rw [← sum_grow (fun t => if (ids t).toInt = (b.val : ℤ) then y t j else 0), Fin.sum_univ_two]
  simp only [word_eq_iff_toInt, ite_mul, one_mul, zero_mul]

/-- The two core halves' accumulated one-hot column sums are the segment count. -/
theorem onehot_cnt_eq_segCnt (ids : Fin 65536 → BitVec 32) (b : Fin 64) :
    (∑ i : Fin 32, ∑ r : Fin 1024, (if ids (grow 0 i r) = BitVec.ofNat 32 b.val then (1 : EReal) else 0))
      + (∑ i : Fin 32, ∑ r : Fin 1024, (if ids (grow 1 i r) = BitVec.ofNat 32 b.val then (1 : EReal) else 0))
    = segCnt ids b := by
  unfold segCnt
  rw [← sum_grow (fun t => if (ids t).toInt = (b.val : ℤ) then (1 : EReal) else 0), Fin.sum_univ_two]
  simp only [word_eq_iff_toInt]

end SegMean

end
-- ==== Proof.KValue.lean ====
/-
  The kernel's per-segment sums and counts are the segment sum of its normalised rows and the segment count.

  The array's two halves hold the accumulators after each half's last step; those are sums over the half's token
  rows of one-hot entries (times normalised entries); a lane below 64 matches a word exactly when the word, read
  signed, is the lane; the two halves together run over every token row once.
-/
import proofs.«422839_j3195455668298_3_alg».proof.Proof.KDefs
import proofs.«422839_j3195455668298_3_alg».proof.Proof.KChain
import proofs.«422839_j3195455668298_3_alg».proof.Proof.KSum
import proofs.«422839_j3195455668298_3_alg».proof.Proof.KTail
import proofs.«422839_j3195455668298_3_alg».proof.Proof.SegAlgebra

noncomputable section

namespace Cert.KernelIdeal.SegValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The per-segment sums at (b, j). -/
theorem sums_apply (c : Dev nD) (b : Fin 64) (j : Fin 1024) :
    sumsOf (sums2 m c) (ix2 b j) = SegMean.segSum (ids m c) (yK m c) b j := by
  rw [sumsOf_apply, sums2_eq, sums2_eq, accS_last, accS_last]
  exact SegMean.onehot_sum_eq_segSum (ids m c) (yK m c) b j

/-- The per-segment counts before the guard. -/
theorem cntsRaw_eq (c : Dev nD) (b : Fin 64) :
    cntsRaw (cnts2 m c) (ix1 b) = SegMean.segCnt (ids m c) b := by
  rw [cntsRaw_apply, cnts2_eq, cnts2_eq, accC_last, accC_last]
  exact SegMean.onehot_cnt_eq_segCnt (ids m c) b

/-- Where the segment has a token the guard does nothing. -/
theorem cnts_apply (c : Dev nD) (b : Fin 64) (hpos : 0 < SegMean.segCnt (ids m c) b) :
    cntsOf (cnts2 m c) (ix1 b) = SegMean.segCnt (ids m c) b := by
  rw [cntsOf_apply_of_pos _ _ (by rw [cntsRaw_eq]; exact hpos), cntsRaw_eq]

end Cert.KernelIdeal.SegValue

end
-- ==== Proof.LibScatterRows.lean ====
/-
  A float scatter-add on the host, read at an index, for the two layouts a row-wise segment sum uses.

  Update row `t` of a [65536, 1024] array (or entry `t` of a [65536] vector) is added into row (entry) `b` of a
  [64, …] operand exactly when the index word of `t`, read signed, is `b`; a word outside [0, 64) adds nothing.
-/
import Idealize.ShloMosaic.PureOps
import Idealize.ShloMosaic.PureOps.Ideal
import Idealize.ShloMosaic.Lib.ValueIdx

noncomputable section

namespace SegMean

open Idealize.ShloMosaic Idealize.ShloMosaic.ValueIdx

/-! ## Where an update lands, for any dimension numbers -/

/-- An update index lands on the operand index `i` exactly when, on every operand axis, the window's start plus the
    window coordinate is `i`'s coordinate (as integers: a negative or too large sum lands nowhere). -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · intro e a; rw [← e]; have := h a; simp only []; omega
    · intro e; funext a; apply Fin.ext; have := e a; have := h a; simp only []; omega
  · rename_i h
    simp only [reduceCtorEq, false_iff]
    intro e; apply h; intro a; have := e a; have := (i a).isLt; omega

/-! ## Rows: a [65536, 1024] update into a [64, 1024] operand, the index word naming the row -/

/-- The rows layout's dimension numbers, written out. -/
private abbrev dR (wf : ScatterDims.WF ⟨2, ![64, 1024]⟩ ⟨2, ![65536, 1]⟩ ⟨2, ![65536, 1024]⟩ [1] [0] [0] 1) :
    ScatterDims ⟨2, ![64, 1024]⟩ ⟨2, ![65536, 1]⟩ ⟨2, ![65536, 1024]⟩ := ⟨[1], [0], [0], 1, wf⟩

/-- Update row `t` reads its one start component at the index word of `t`. -/
private theorem rows_siIdx (wf) (t : Fin 65536) (j' : Fin 1024) (c) :
    (dR wf).siIdx (ix2 t j') c = ix2 t 0 := by
  funext b
  match b with
  | ⟨0, _⟩ => rfl
  | ⟨1, _⟩ => exact Subsingleton.elim (α := Fin 1) _ _

/-- On the row axis the window starts at the index word, read signed. -/
private theorem rows_start0 (wf) (idx : IVec ⟨2, ![65536, 1]⟩ 32) (t : Fin 65536) (j' : Fin 1024) :
    (dR wf).start (ix2 t j') idx 0 = (idx (ix2 t 0)).toInt := by
  unfold ScatterDims.start
  rw [dif_pos (show (0 : Fin 2) ∈ [(0 : Fin 2)] by decide), rows_siIdx]

/-- On the column axis the window starts at 0. -/
private theorem rows_start1 (wf) (idx : IVec ⟨2, ![65536, 1]⟩ 32) (t : Fin 65536) (j' : Fin 1024) :
    (dR wf).start (ix2 t j') idx 1 = 0 := by
  unfold ScatterDims.start
  rw [dif_neg (show (1 : Fin 2) ∉ [(0 : Fin 2)] by decide)]

/-- The row axis is an inserted one: its window coordinate is 0. -/
private theorem rows_window0 (wf) (t : Fin 65536) (j' : Fin 1024) :
    (dR wf).window (ix2 t j') 0 = 0 := by
  unfold ScatterDims.window
  rw [dif_neg (show (0 : Fin 2) ∉ Shape.kept ⟨2, ![64, 1024]⟩ [0] by decide)]

/-- The column axis takes the update's column. -/
private theorem rows_window1 (wf) (t : Fin 65536) (j' : Fin 1024) :
    (dR wf).window (ix2 t j') 1 = j'.val := by
  unfold ScatterDims.window
  rw [dif_pos (show (1 : Fin 2) ∈ Shape.kept ⟨2, ![64, 1024]⟩ [0] by decide)]
  rfl

/-- Update element `(t, j')` lands on operand element `(b, j)` exactly when the index word of `t` is `b` and the
    columns agree. -/
private theorem rows_resultIdx (wf) (idx : IVec ⟨2, ![65536, 1]⟩ 32) (t : Fin 65536) (j' : Fin 1024) (b : Fin 64)
    (j : Fin 1024) :
    (dR wf).resultIdx? (ix2 t j') idx = some (ix2 b j) ↔ (idx (ix2 t 0)).toInt = (b.val : ℤ) ∧ j' = j := by
  rw [resultIdx?_eq_some_iff]
  constructor
  · intro h
    have h0 := h 0
    have h1 := h 1
    rw [rows_start0, rows_window0] at h0
    rw [rows_start1, rows_window1] at h1
    change _ + _ = (b.val : ℤ) at h0
    change _ + _ = (j.val : ℤ) at h1
    exact ⟨by omega, Fin.ext (by omega)⟩
  · rintro ⟨h1, rfl⟩ a
    match a with
    | ⟨0, _⟩ =>
      show (dR wf).start (ix2 t j') idx 0 + ((dR wf).window (ix2 t j') 0 : ℤ) = (b.val : ℤ)
      rw [rows_start0, rows_window0]; omega
    | ⟨1, _⟩ =>
      show (dR wf).start (ix2 t j') idx 1 + ((dR wf).window (ix2 t j') 1 : ℤ) = (j'.val : ℤ)
      rw [rows_start1, rows_window1]; omega

/-- Rows: whole update rows land on the operand row the index word names. -/
theorem scatterAdd_rows (d : ScatterDims ⟨2, ![64, 1024]⟩ ⟨2, ![65536, 1]⟩ ⟨2, ![65536, 1024]⟩)
    (h1 : d.updateWindowDims = [1]) (h2 : d.insertedWindowDims = [0]) (h3 : d.scatterDimsToOperandDims = [0])
    (h4 : d.indexVectorDim = 1)
    (x : (⟨2, ![64, 1024]⟩ : Shape).Idx → EReal) (idx : IVec ⟨2, ![65536, 1]⟩ 32)
    (upd : (⟨2, ![65536, 1024]⟩ : Shape).Idx → EReal) (b : Fin 64) (j : Fin 1024) :
    Ideal.hostScatterAdd d x idx upd (ix2 b j)
      = x (ix2 b j) + ∑ t : Fin 65536, if (idx (ix2 t 0)).toInt = (b.val : ℤ) then upd (ix2 t j) else 0 := by
  obtain ⟨uw, iw, sd, iv, wf⟩ := d
  dsimp only at h1 h2 h3 h4
  subst h1 h2 h3 h4
  unfold Ideal.hostScatterAdd
  refine congrArg (fun z => x (ix2 b j) + z) ?_
  -- the filtered sum, as a double sum over the update's rows and columns
  rw [Finset.sum_filter, sum_idx2]
  refine Finset.sum_congr rfl fun t _ => ?_
  have key := rows_resultIdx wf idx t
  simp only [dR] at key
  simp only [key]
  -- of row `t` only column `j` can land on `(b, j)`, and only when the word of `t` is `b`
  by_cases hb : (idx (ix2 t 0)).toInt = (b.val : ℤ)
  · simp only [hb, true_and, if_true]
    simp [Finset.sum_ite_eq']
  · simp only [hb, false_and, if_false]
    exact Finset.sum_const_zero

/-! ## Entries: a [65536] update into a [64] operand, the index word naming the entry -/

/-- The entries layout's dimension numbers, written out (no window axis). -/
private abbrev dE (wf : ScatterDims.WF ⟨1, ![64]⟩ ⟨2, ![65536, 1]⟩ ⟨1, ![65536]⟩ [] [0] [0] 1) :
    ScatterDims ⟨1, ![64]⟩ ⟨2, ![65536, 1]⟩ ⟨1, ![65536]⟩ := ⟨[], [0], [0], 1, wf⟩

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update entry `t` reads its one start component at the index word of `t`. -/
private theorem ent_siIdx (wf) (t : Fin 65536) (c) : (dE wf).siIdx (ix1 t) c = ix2 t 0 := by
  funext b
  match b with
  | ⟨0, _⟩ => rfl
  | ⟨1, _⟩ => exact Subsingleton.elim (α := Fin 1) _ _

/-- On the operand's one axis the window starts at the index word, read signed. -/
private theorem ent_start0 (wf) (idx : IVec ⟨2, ![65536, 1]⟩ 32) (t : Fin 65536) :
    (dE wf).start (ix1 t) idx 0 = (idx (ix2 t 0)).toInt := by
  unfold ScatterDims.start
  rw [dif_pos (show (0 : Fin 1) ∈ [(0 : Fin 1)] by decide), ent_siIdx]

/-- The operand's one axis is an inserted one: its window coordinate is 0. -/
private theorem ent_window0 (wf) (t : Fin 65536) : (dE wf).window (ix1 t) 0 = 0 := by
  unfold ScatterDims.window
  rw [dif_neg (show (0 : Fin 1) ∉ Shape.kept ⟨1, ![64]⟩ [0] by decide)]

/-- Update entry `t` lands on operand entry `b` exactly when the index word of `t` is `b`. -/
private theorem ent_resultIdx (wf) (idx : IVec ⟨2, ![65536, 1]⟩ 32) (t : Fin 65536) (b : Fin 64) :
    (dE wf).resultIdx? (ix1 t) idx = some (ix1 b) ↔ (idx (ix2 t 0)).toInt = (b.val : ℤ) := by
  rw [resultIdx?_eq_some_iff]
  constructor
  · intro h
    have h0 := h 0
    rw [ent_start0, ent_window0] at h0
    change _ + _ = (b.val : ℤ) at h0
    omega
  · intro h1 a
    match a with
    | ⟨0, _⟩ =>
      show (dE wf).start (ix1 t) idx 0 + ((dE wf).window (ix1 t) 0 : ℤ) = (b.val : ℤ)
      rw [ent_start0, ent_window0]; omega

/-- Entries: update entry `t` lands on the operand entry the index word names. -/
theorem scatterAdd_entries (d : ScatterDims ⟨1, ![64]⟩ ⟨2, ![65536, 1]⟩ ⟨1, ![65536]⟩)
    (h1 : d.updateWindowDims = []) (h2 : d.insertedWindowDims = [0]) (h3 : d.scatterDimsToOperandDims = [0])
    (h4 : d.indexVectorDim = 1)
    (x : (⟨1, ![64]⟩ : Shape).Idx → EReal) (idx : IVec ⟨2, ![65536, 1]⟩ 32)
    (upd : (⟨1, ![65536]⟩ : Shape).Idx → EReal) (b : Fin 64) :
    Ideal.hostScatterAdd d x idx upd (ix1 b)
      = x (ix1 b) + ∑ t : Fin 65536, if (idx (ix2 t 0)).toInt = (b.val : ℤ) then upd (ix1 t) else 0 := by
  obtain ⟨uw, iw, sd, iv, wf⟩ := d
  dsimp only at h1 h2 h3 h4
  subst h1 h2 h3 h4
  unfold Ideal.hostScatterAdd
  refine congrArg (fun z => x (ix1 b) + z) ?_
  rw [Finset.sum_filter, sum_idx1]
  refine Finset.sum_congr rfl fun t _ => ?_
  have key := ent_resultIdx wf idx t b
  simp only [dE] at key
  simp only [key]

end SegMean

end
-- ==== Proof.RefSeg.lean ====
/-
  The reference's two segment reductions read at an index, and its result as the shared host chain of them.

  Its sums array at (b, j) is the segment sum of column j of the normalised rows (the reference's way: divided by
  the root); its counts vector at b is the segment count.
-/
import proofs.«422839_j3195455668298_3_alg».proof.Proof.Gen.ReferenceIdeal.Read
import proofs.«422839_j3195455668298_3_alg».proof.Proof.Spec
import proofs.«422839_j3195455668298_3_alg».proof.Proof.LibScatterRows
import proofs.«422839_j3195455668298_3_alg».proof.Proof.LibRowLayers

noncomputable section

namespace Cert.ReferenceIdeal.SegValue

open Idealize.ShloMosaic Idealize.ShloMosaic.TcCoe Idealize.SL.Sem Idealize.ShloMosaic.ValueIdx
open Cert.ReferenceIdeal Cert.ReferenceIdeal.Gen Cert.ReferenceIdeal.Read

/-- Token `t`'s normalised row, the reference's way, as a function of the argument arrays. -/
def yR (x0 x1 : FVec Ideal S65536x1024 .f32) (x2 : FVec Ideal S1024x1024 .f32) (x3 x4 x5 : FVec Ideal S1024 .f32)
    (t : Fin 65536) (j : Fin 1024) : EReal :=
  SegMean.rowNormR
    (SegMean.rowPre (fun k => x0 (ix2 t k)) (fun k => x1 (ix2 t k)) (fun k j => x2 (ix2 k j)) (fun j => x3 (ix1 j)))
    (fun j => x4 (ix1 j)) (fun j => x5 (ix1 j)) j

/-! ### Index equations: the generated index functions at a named index are the named indices. -/

private theorem idx9_eq (t : Fin 65536) (j : Fin 1024) : idx_main_v9 (ix2 t j) = ix2 t (0 : Fin 1) :=
  funext fun a => Fin.ext (by match a with | ⟨0, _⟩ => rfl | ⟨1, _⟩ => rfl)
private theorem idx16_eq (t : Fin 65536) (j : Fin 1024) : idx_main_v16 (ix2 t j) = ix2 t (0 : Fin 1) :=
  funext fun a => Fin.ext (by match a with | ⟨0, _⟩ => rfl | ⟨1, _⟩ => rfl)
private theorem idx21_eq (t : Fin 65536) (j : Fin 1024) : idx_main_v21 (ix2 t j) = ix2 t (0 : Fin 1) :=
  funext fun a => Fin.ext (by match a with | ⟨0, _⟩ => rfl | ⟨1, _⟩ => rfl)
private theorem idx6_eq (t : Fin 65536) : idx_main_v6 (ix2 t (0 : Fin 1)) = ix1 t :=
  funext fun a => Fin.ext (by match a with | ⟨0, _⟩ => rfl)
private theorem idx13_eq (t : Fin 65536) : idx_main_v13 (ix2 t (0 : Fin 1)) = ix1 t :=
  funext fun a => Fin.ext (by match a with | ⟨0, _⟩ => rfl)
private theorem idx30_eq (t : Fin 65536) : idx_main_v30 (ix2 t (0 : Fin 1)) = ix1 t :=
  funext fun a => Fin.ext (by match a with | ⟨0, _⟩ => rfl)
private theorem idx34_eq (t : Fin 65536) : idx_main_v34 (ix2 t (0 : Fin 1)) = ix1 t :=
  funext fun a => Fin.ext (by match a with | ⟨0, _⟩ => rfl)
private theorem idx5_eq (t : Fin 65536) (k : Fin 1024) : idx_main_v5 (ix1 t) k = ix2 t k :=
  funext fun a => Fin.ext (by match a with | ⟨0, _⟩ => rfl | ⟨1, _⟩ => rfl)
private theorem idx12_eq (t : Fin 65536) (k : Fin 1024) : idx_main_v12 (ix1 t) k = ix2 t k :=
  funext fun a => Fin.ext (by match a with | ⟨0, _⟩ => rfl | ⟨1, _⟩ => rfl)
private theorem lidx0_eq (t : Fin 65536) (j k : Fin 1024) : lidx_main_v0 (ix2 t j) k = ix2 t k :=
  funext fun a => Fin.ext (by match a with | ⟨0, _⟩ => rfl | ⟨1, _⟩ => rfl)
private theorem ridx0_eq (t : Fin 65536) (j k : Fin 1024) : ridx_main_v0 (ix2 t j) k = ix2 k j :=
  funext fun a => Fin.ext (by match a with | ⟨0, _⟩ => rfl | ⟨1, _⟩ => rfl)
private theorem idx2_eq (t : Fin 65536) (j : Fin 1024) : idx_main_v2 (ix2 t j) = ix2 (0 : Fin 1) j :=
  funext fun a => Fin.ext (by match a with | ⟨0, _⟩ => rfl | ⟨1, _⟩ => rfl)
private theorem idx24_eq (t : Fin 65536) (j : Fin 1024) : idx_main_v24 (ix2 t j) = ix2 (0 : Fin 1) j :=
  funext fun a => Fin.ext (by match a with | ⟨0, _⟩ => rfl | ⟨1, _⟩ => rfl)
private theorem idx27_eq (t : Fin 65536) (j : Fin 1024) : idx_main_v27 (ix2 t j) = ix2 (0 : Fin 1) j :=
  funext fun a => Fin.ext (by match a with | ⟨0, _⟩ => rfl | ⟨1, _⟩ => rfl)
private theorem idx1_eq (j : Fin 1024) : idx_main_v1 (ix2 (0 : Fin 1) j) = ix1 j :=
  funext fun a => Fin.ext (by match a with | ⟨0, _⟩ => rfl)
private theorem idx23_eq (j : Fin 1024) : idx_main_v23 (ix2 (0 : Fin 1) j) = ix1 j :=
  funext fun a => Fin.ext (by match a with | ⟨0, _⟩ => rfl)
private theorem idx26_eq (j : Fin 1024) : idx_main_v26 (ix2 (0 : Fin 1) j) = ix1 j :=
  funext fun a => Fin.ext (by match a with | ⟨0, _⟩ => rfl)

/-- Token `t`'s pre-activation row as a function of the argument arrays. -/
private abbrev hR (x0 x1 : FVec Ideal S65536x1024 .f32) (x2 : FVec Ideal S1024x1024 .f32) (x3 : FVec Ideal S1024 .f32)
    (t : Fin 65536) : Fin 1024 → EReal :=
  SegMean.rowPre (fun k => x0 (ix2 t k)) (fun k => x1 (ix2 t k)) (fun k j => x2 (ix2 k j)) (fun j => x3 (ix1 j))

/-- The dense layer plus bias plus residual at (t, j) is the pre-activation row's entry. -/
private theorem v4_at (x0 x1 : FVec Ideal S65536x1024 .f32) (x2 : FVec Ideal S1024x1024 .f32) (x3 : FVec Ideal S1024 .f32)
    (t : Fin 65536) (j : Fin 1024) :
    val_main_v4 (F := Ideal) x0 x1 x2 x3 (ix2 t j) = hR x0 x1 x2 x3 t j := by
  rw [val_main_v4_apply, val_main_v3_apply, val_main_v0_apply, val_main_v2_apply, idx2_eq, val_main_v1_apply, idx1_eq]
  simp only [Ideal.addf_def, lidx0_eq, ridx0_eq]
  rfl

/-- The row mean at (t, 0). -/
private theorem v8_at (x0 x1 : FVec Ideal S65536x1024 .f32) (x2 : FVec Ideal S1024x1024 .f32) (x3 : FVec Ideal S1024 .f32)
    (t : Fin 65536) :
    val_main_v8 (F := Ideal) x0 x1 x2 x3 (ix2 t (0 : Fin 1)) = SegMean.rowMean (hR x0 x1 x2 x3 t) := by
  rw [val_main_v8_apply, val_main_v6_apply, idx6_eq, val_main_v5_apply, val_main_v7_apply, val_main_cst_0_apply,
    val_main_cst_apply]
  simp only [Ideal.hostDivf_def, Ideal.ofBits_def, Ideal.ofBits_zero_f32, zero_add, idx5_eq, v4_at]
  rfl

/-- The row variance at (t, 0). -/
private theorem v15_at (x0 x1 : FVec Ideal S65536x1024 .f32) (x2 : FVec Ideal S1024x1024 .f32) (x3 : FVec Ideal S1024 .f32)
    (t : Fin 65536) :
    val_main_v15 (F := Ideal) x0 x1 x2 x3 (ix2 t (0 : Fin 1)) = SegMean.rowVar (hR x0 x1 x2 x3 t) := by
  rw [val_main_v15_apply, val_main_v13_apply, idx13_eq, val_main_v12_apply, val_main_v14_apply, val_main_cst_2_apply,
    val_main_cst_1_apply]
  simp only [Ideal.hostDivf_def, Ideal.ofBits_def, Ideal.ofBits_zero_f32, zero_add, idx12_eq, val_main_v11_apply,
    val_main_v10_apply, val_main_v9_apply, idx9_eq, v8_at, v4_at, Ideal.mulf_def, Ideal.subf_def]
  rfl

/-- The normalised row at (t, j), the reference's way. -/
theorem v28_apply (x0 x1 : FVec Ideal S65536x1024 .f32) (x2 : FVec Ideal S1024x1024 .f32) (x3 x4 x5 : FVec Ideal S1024 .f32)
    (t : Fin 65536) (j : Fin 1024) :
    val_main_v28 (F := Ideal) x0 x1 x2 x3 x4 x5 (ix2 t j) = yR x0 x1 x2 x3 x4 x5 t j := by
  rw [val_main_v28_apply, val_main_v25_apply, val_main_v27_apply, idx27_eq, val_main_v26_apply, idx26_eq,
    val_main_v24_apply, idx24_eq, val_main_v23_apply, idx23_eq, val_main_v22_apply, val_main_v17_apply,
    val_main_v16_apply, idx16_eq, val_main_v21_apply, idx21_eq, val_main_v20_apply, val_main_v19_apply,
    val_main_v18_apply, val_main_cst_3_apply, v15_at, v8_at, v4_at]
  simp only [Ideal.hostDivf_def, Ideal.ofBits_def, Ideal.addf_def, Ideal.mulf_def, Ideal.subf_def,
    Ideal.hostUnary_sqrt_def]
  rfl

theorem v31_apply (x0 x1 : FVec Ideal S65536x1024 .f32) (x2 : FVec Ideal S1024x1024 .f32) (x3 x4 x5 : FVec Ideal S1024 .f32)
    (x8 : IVec S65536 32) (b : Fin 64) (j : Fin 1024) :
    val_main_v31 (F := Ideal) x0 x1 x2 x3 x4 x5 x8 (ix2 b j)
      = SegMean.segSum (fun t => x8 (ix1 t)) (yR x0 x1 x2 x3 x4 x5) b j := by
  unfold val_main_v31
  simp only [Host.scatterAdd, Ideal.hostScatterAdd_def]
  rw [SegMean.scatterAdd_rows _ rfl rfl rfl rfl, val_main_v29_apply, val_main_cst_4_apply]
  simp only [Ideal.ofBits_def, Ideal.ofBits_zero_f32, zero_add, val_main_v30_apply, idx30_eq, v28_apply]
  rfl

/-- The word of the float one denotes the extended real one. -/
private theorem ofBits_one_f32 : Ideal.ofBits .f32 0x3F800000#32 = 1 := by
  simp [Ideal.ofBits, Ideal.ieee, -EReal.coe_mul]; norm_num

theorem v35_apply (x8 : IVec S65536 32) (b : Fin 64) :
    val_main_v35 (F := Ideal) x8 (ix1 b) = SegMean.segCnt (fun t => x8 (ix1 t)) b := by
  unfold val_main_v35
  simp only [Host.scatterAdd, Ideal.hostScatterAdd_def]
  rw [SegMean.scatterAdd_entries _ rfl rfl rfl rfl, val_main_v33_apply, val_main_cst_6_apply]
  simp only [Ideal.ofBits_def, Ideal.ofBits_zero_f32, zero_add, val_main_v34_apply, idx34_eq, val_main_v32_apply,
    val_main_cst_5_apply, ofBits_one_f32]
  rfl

/-- The reference's result is the shared host chain of its sums and counts. -/
theorem result_eq_tail (x0 x1 : FVec Ideal S65536x1024 .f32) (x2 : FVec Ideal S1024x1024 .f32) (x3 x4 x5 : FVec Ideal S1024 .f32)
    (x6 : FVec Ideal S1024x2 .f32) (x7 : FVec Ideal S2 .f32) (x8 : IVec S65536 32) :
    val_main_v42 (F := Ideal) x0 x1 x2 x3 x4 x5 x6 x7 x8
      = SegMean.tail (val_main_v31 (F := Ideal) x0 x1 x2 x3 x4 x5 x8) (val_main_v35 (F := Ideal) x8) x6 x7 := by
  unfold val_main_v42 val_main_v39 val_main_v38 val_main_v37 val_main_v36 val_main_v41 val_main_v40 SegMean.tail
  generalize val_main_v31 (F := Ideal) x0 x1 x2 x3 x4 x5 x8 = S
  generalize val_main_v35 (F := Ideal) x8 = n
  rfl

end Cert.ReferenceIdeal.SegValue

end
-- ==== Proof.PreFacts.lean ====
/-
  What the precondition says, decoded: the four arrays the normalisation reads hold real numbers, and every one of
  the 64 segments has a token.
-/
import proofs.«422839_j3195455668298_3_alg».proof.Pre_finite_inputs
import proofs.«422839_j3195455668298_3_alg».proof.Proof.Gen.Pre_finite_inputs
import proofs.«422839_j3195455668298_3_alg».proof.Proof.Spec
import proofs.«422839_j3195455668298_3_alg».proof.Proof.LibScatterRows
import Idealize.ShloMosaic.Lib.ReduceAll
import Idealize.ShloMosaic.Lib.StableHlo.Predicate
import Idealize.ShloMosaic.Lib.Pipeline.Value
import Idealize.ShloMosaic.Lib.IdealHost
import Idealize.ShloMosaic.PureOps.Ideal.Laws

noncomputable section

namespace Cert.Pre_finite_inputs.Decode

open Idealize.ShloMosaic Idealize.ShloMosaic.ValueIdx
open Cert.Pre_finite_inputs Cert.Pre_finite_inputs.Gen

/-- The scalar shape has one index. -/
private instance subsingleton_scalar_idx : Subsingleton S_.Idx := ⟨fun a b => funext fun d => d.elim0⟩

/-- A one-bit word made from a truth value is 1 exactly when the value is true. -/
private theorem ofBool_eq_one (b : Bool) : BitVec.ofBool b = 1#1 ↔ b = true := by cases b <;> decide

/-- The word the inputs are compared against is plus infinity. -/
private theorem inf_word : Ideal.ofBits .f32 0x7F800000#32 = (⊤ : EReal) := by simp [Ideal.ofBits, Ideal.ieee]

/-- An extended real whose absolute value lies below plus infinity is a real number. -/
private theorem real_of_abs_lt (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- One entry's test |x| < +inf, read back. -/
private theorem real_of_lt {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  exact real_of_abs_lt _ h'

/-- A whole array's test, reduced by `and` to one bit that is 1: every entry is a real number. -/
private theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) :
    ∀ i, ∃ r : ℝ, a i = (r : EReal) :=
  fun i => real_of_lt a hb i (Host.reduce_andi_all _ _ hr hu ix0 e i)

/-- The ids laid out as a column, read at row `t`: the id of token `t`. -/
private theorem ids_column (a8 : IVec S65536 32) (t : Fin 65536) :
    broadcastInDim S65536x1 ![0] bcast_S65536_S65536x1_0 a8 (ix2 t 0) = a8 (ix1 t) := by
  refine broadcastInDim_apply _ _ a8 (ix2 t 0) (ix1 t) (fun a => ?_)
  match a with
  | ⟨0, _⟩ => rfl

/-- The scatter-add of ones into zeros at the ids, read at segment `b`: the segment's token count. -/
private theorem count_eq (a8 : IVec S65536 32) (b : Fin 64) :
    Host.scatterAdd (F := Ideal) scatter_S64_S65536x1_S65536_n_0_0_1
        (broadcastInDim S64 ![] bcast_S_S64 (constant (F := Ideal) S_ .f32 0x00000000#32))
        (broadcastInDim S65536x1 ![0] bcast_S65536_S65536x1_0 a8)
        (broadcastInDim S65536 ![] bcast_S_S65536 (constant (F := Ideal) S_ .f32 0x3F800000#32)) (ix1 b)
      = SegMean.segCnt (fun t => a8 (ix1 t)) b := by
  show Ideal.hostScatterAdd scatter_S64_S65536x1_S65536_n_0_0_1 _ _ _ (ix1 b) = _
  rw [SegMean.scatterAdd_entries _ rfl rfl rfl rfl]
  unfold SegMean.segCnt
  have hz : broadcastInDim S64 ![] bcast_S_S64 (constant (F := Ideal) S_ .f32 0x00000000#32) (ix1 b) = (0 : EReal) :=
    Ideal.ofBits_zero_f32
  have ho : ∀ t : Fin 65536,
      broadcastInDim S65536 ![] bcast_S_S65536 (constant (F := Ideal) S_ .f32 0x3F800000#32) (ix1 t) = (1 : EReal) :=
    fun t => Ideal.ofBits_one_f32
  rw [hz, zero_add]
  refine Finset.sum_congr rfl (fun t _ => ?_)
  rw [ids_column, ho]

theorem facts_of_pre (a0 a1 : FVec Ideal S65536x1024 .f32) (a2 : FVec Ideal S1024x1024 .f32) (a3 a4 a5 : FVec Ideal S1024 .f32)
    (a6 : FVec Ideal S1024x2 .f32) (a7 : FVec Ideal S2 .f32) (a8 : IVec S65536 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ ∀ b : Fin 64, 0 < SegMean.segCnt (fun t => a8 (ix1 t)) b := by
  have e := congrFun h ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨e0, e1⟩, e2⟩, e3⟩, -⟩, -⟩, -⟩, -⟩, ec⟩ := e
  refine ⟨all_real a0 _ _ _ e0, all_real a1 _ _ _ e1, all_real a2 _ _ _ e2, all_real a3 _ _ _ e3, fun b => ?_⟩
  have hb := Host.reduce_andi_all _ _ _ _ ix0 ec (ix1 b)
  rw [cmpf_apply, Ideal.cmpf_def, count_eq, broadcastInDim_scalar_apply, constant_apply, Ideal.ofBits_zero_f32] at hb
  simp only [Ideal.cmp] at hb
  rw [ofBool_eq_one] at hb
  exact of_decide_eq_true hb

end Cert.Pre_finite_inputs.Decode

end
-- ==== Proof.RowAlgebra.lean ====
/-
  Row normalisation over the extended reals: on a real row the kernel's reciprocal root and the reference's
  division by the root give the same row.
-/
import proofs.«422839_j3195455668298_3_alg».proof.Proof.Spec

noncomputable section

namespace SegMean

open Idealize.ShloMosaic

/-- A finite sum of reals, read in the extended reals, is the real sum. -/
private theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The row width's word denotes the real `1024`. -/
private theorem c1024_eq : c1024 = ((1024 : ℝ) : EReal) := by
  show Ideal.ofBits .f32 0x44800000#32 = _
  simp [Ideal.ofBits, Ideal.ieee, -EReal.coe_mul]; norm_num

/-- The small constant's word denotes a positive real: `9223372 · 2⁻⁶³`. -/
private theorem ceps_pos : ∃ e : ℝ, 0 < e ∧ ceps = (e : EReal) := by
  refine ⟨(9223372 : ℝ) * (2 : ℝ) ^ (-63 : ℤ), by positivity, ?_⟩
  show Ideal.ofBits .f32 0x2B8CBCCC#32 = _
  simp [Ideal.ofBits, Ideal.ieee, -EReal.coe_mul]

/-- The mean of a real row is the real mean. -/
private theorem rowMean_coe (hr : Fin 1024 → ℝ) :
    rowMean (fun k => ((hr k : ℝ) : EReal)) = (((∑ k, hr k) * (1 / 1024) : ℝ) : EReal) := by
  rw [rowMean, c1024_eq, Ideal.div_coe (by norm_num), coe_sum, ← EReal.coe_mul]

/-- The variance of a real row is a real, and not negative: a sum of squares over the width. -/
private theorem rowVar_coe (hr : Fin 1024 → ℝ) :
    ∃ v : ℝ, 0 ≤ v ∧ rowVar (fun k => ((hr k : ℝ) : EReal)) = (v : EReal) := by
  refine ⟨(∑ k, (hr k - (∑ i, hr i) * (1 / 1024)) * (hr k - (∑ i, hr i) * (1 / 1024))) * (1 / 1024), ?_, ?_⟩
  · exact mul_nonneg (Finset.sum_nonneg (fun k _ => mul_self_nonneg _)) (by norm_num)
  · rw [rowVar, rowMean_coe, c1024_eq, Ideal.div_coe (by norm_num)]
    simp only [← EReal.coe_sub, ← EReal.coe_mul]
    rw [coe_sum, ← EReal.coe_mul]

/-- A pre-activation row of real inputs is real. -/
theorem rowPre_real (xr er : Fin 1024 → EReal) (W : Fin 1024 → Fin 1024 → EReal) (bd : Fin 1024 → EReal)
    (hx : ∀ k, ∃ r : ℝ, xr k = (r : EReal)) (he : ∀ k, ∃ r : ℝ, er k = (r : EReal))
    (hW : ∀ k j, ∃ r : ℝ, W k j = (r : EReal)) (hb : ∀ k, ∃ r : ℝ, bd k = (r : EReal)) (j : Fin 1024) :
    ∃ r : ℝ, rowPre xr er W bd j = (r : EReal) := by
  choose xr' hx using hx
  choose er' he using he
  choose W' hW using hW
  choose bd' hb using hb
  refine ⟨((∑ k, xr' k * W' k j) + bd' j) + er' j, ?_⟩
  rw [rowPre]
  simp only [hx, he, hW, hb, ← EReal.coe_mul]
  rw [coe_sum, ← EReal.coe_add, ← EReal.coe_add]

/-- On a real row, multiplying by the reciprocal root is dividing by the root: the variance plus the constant is a
    positive real. -/
theorem rowNormK_eq_rowNormR (h g be : Fin 1024 → EReal) (hh : ∀ k, ∃ r : ℝ, h k = (r : EReal)) (j : Fin 1024) :
    rowNormK h g be j = rowNormR h g be j := by
  choose hr hhr using hh
  obtain rfl : h = fun k => ((hr k : ℝ) : EReal) := funext hhr
  obtain ⟨e, he0, hce⟩ := ceps_pos
  obtain ⟨v, hv0, hv⟩ := rowVar_coe hr
  have hr0 : 0 < v + e := by linarith
  have hs : Real.sqrt (v + e) ≠ 0 := (Real.sqrt_pos.mpr hr0).ne'
  have hv' : rowVar (fun k => ((hr k : ℝ) : EReal)) + ceps = ((v + e : ℝ) : EReal) := by
    rw [hv, hce, EReal.coe_add]
  rw [rowNormK, rowNormR, hv']
  simp only [Ideal.rsqrt_coe, Ideal.sqrt_coe, if_neg (not_lt.mpr hr0.le), if_neg hr0.ne']
  rw [Ideal.div_coe hs, one_div]

end SegMean

end
-- ==== Proof.lean ====
/-
  The certificate: a ragged-segment mean of layer-normalised token rows, pushed through an output projection.

  Both programs compute, for each of 64 segments, the sum of the normalised rows of the segment's tokens divided by
  the segment's token count, times the output weights, plus the output bias. The reference scatters rows by segment
  word; the kernel multiplies by a one-hot tile, block of rows by block of rows, into two per-core-half partial
  sums that the host adds. The reference divides by a square root where the kernel multiplies by its reciprocal:
  the same on real rows, which finite inputs give. The kernel replaces a zero count by one where the reference
  divides zero by zero; the precondition says every segment has a token, so the counts are positive and the guard
  never acts. From there on both programs run one and the same host chain on equal arrays.
-/
import proofs.«422839_j3195455668298_3_alg».proof.Defs
import proofs.«422839_j3195455668298_3_alg».proof.Proof.Gen.Kernel
import proofs.«422839_j3195455668298_3_alg».proof.Proof.Gen.Kernel.Skeleton
import proofs.«422839_j3195455668298_3_alg».proof.Proof.Gen.Kernel.Launch
import proofs.«422839_j3195455668298_3_alg».proof.Proof.Gen.Kernel.Points
import proofs.«422839_j3195455668298_3_alg».proof.Proof.Gen.Kernel.Frame
import proofs.«422839_j3195455668298_3_alg».proof.Proof.Gen.KernelIdeal
import proofs.«422839_j3195455668298_3_alg».proof.Proof.Gen.KernelIdeal.Skeleton
import proofs.«422839_j3195455668298_3_alg».proof.Proof.Gen.KernelIdeal.Launch
import proofs.«422839_j3195455668298_3_alg».proof.Proof.Gen.KernelIdeal.Points
import proofs.«422839_j3195455668298_3_alg».proof.Proof.Gen.KernelIdeal.Frame
import proofs.«422839_j3195455668298_3_alg».proof.Proof.Gen.ReferenceIdeal
import proofs.«422839_j3195455668298_3_alg».proof.Proof.Gen.Pre_finite_inputs
import proofs.«422839_j3195455668298_3_alg».proof.Proof.Gen.ReferenceIdeal.Run
import proofs.«422839_j3195455668298_3_alg».proof.Proof.Gen.ReferenceIdeal.Read
import proofs.«422839_j3195455668298_3_alg».proof.Proof.KValue
import proofs.«422839_j3195455668298_3_alg».proof.Proof.RefSeg
import proofs.«422839_j3195455668298_3_alg».proof.Proof.PreFacts
import proofs.«422839_j3195455668298_3_alg».proof.Proof.RowAlgebra
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: widening a narrowed one-hot tile back is the identity on exact values. -/
theorem preserves : Cert.preserves_Kernel_KernelIdeal :=
  IdealRules.truncf_extf.statement Cert.KernelIdeal.S1024x128 .f32 .bf16

open Cert.KernelIdeal.SegValue in
/-- Under the precondition the kernel's per-segment sums are the reference's scattered sums, entry by entry: the
    same segment sum, of rows normalised by a reciprocal root on one side and a division by the root on the other,
    which agree on the real rows finite inputs give. -/
theorem sums_eq (m : (ℓ : Loc Cert.KernelIdeal.nD Cert.KernelIdeal.τ Cert.KernelIdeal.sig) → Buf (Elt Ideal) ℓ)
    (c : Dev Cert.KernelIdeal.nD)
    (h0 : ∀ i, ∃ r : ℝ, arg0 m c i = (r : EReal)) (h1 : ∀ i, ∃ r : ℝ, arg1 m c i = (r : EReal))
    (h2 : ∀ i, ∃ r : ℝ, arg2 m c i = (r : EReal)) (h3 : ∀ i, ∃ r : ℝ, arg3 m c i = (r : EReal)) :
    Cert.ReferenceIdeal.Read.val_main_v31 (F := Ideal) (arg0 m c) (arg1 m c) (arg2 m c) (arg3 m c) (arg4 m c) (arg5 m c) (arg8 m c)
      = sumsOf (sums2 m c) := by
  funext i
  obtain ⟨b, j, rfl⟩ : ∃ (b : Fin 64) (j : Fin 1024), i = ix2 b j := ⟨i 0, i 1, eq_ix2 i⟩
  rw [Cert.ReferenceIdeal.SegValue.v31_apply, sums_apply]
  unfold SegMean.segSum
  refine Finset.sum_congr rfl fun t _ => ?_
  show (if _ then Cert.ReferenceIdeal.SegValue.yR _ _ _ _ _ _ t j else 0) = if _ then yK m c t j else 0
  unfold Cert.ReferenceIdeal.SegValue.yR yK ids
  rw [SegMean.rowNormK_eq_rowNormR _ _ _ (fun k => SegMean.rowPre_real _ _ _ _ (fun k => h0 _) (fun k => h1 _) (fun k j => h2 _) (fun k => h3 _) k)]

open Cert.KernelIdeal.SegValue in
/-- Under the precondition the kernel's guarded counts are the reference's counts. -/
theorem cnts_eq (m : (ℓ : Loc Cert.KernelIdeal.nD Cert.KernelIdeal.τ Cert.KernelIdeal.sig) → Buf (Elt Ideal) ℓ)
    (c : Dev Cert.KernelIdeal.nD) (hpos : ∀ b : Fin 64, 0 < SegMean.segCnt (fun t => arg8 m c (ix1 t)) b) :
    Cert.ReferenceIdeal.Read.val_main_v35 (F := Ideal) (arg8 m c) = cntsOf (cnts2 m c) := by
  funext i
  obtain ⟨b, rfl⟩ : ∃ b : Fin 64, i = ix1 b := ⟨i 0, eq_ix1 i⟩
  rw [Cert.ReferenceIdeal.SegValue.v35_apply, cnts_apply m c b (hpos b)]
  rfl

open Cert.KernelIdeal.SegValue in
theorem algebraic : Cert.algebraic_KernelIdeal_ReferenceIdeal := by
  intro m ρ m' ρ' hpre hagree
  refine ⟨fun c => SegMean.tail (sumsOf (sums2 m c)) (cntsOf (cnts2 m c)) (arg6 m c) (arg7 m c),
    Cert.KernelIdeal.SegValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨f0, f1, f2, f3, fpos⟩ := Cert.Pre_finite_inputs.Decode.facts_of_pre _ _ _ _ _ _ _ _ _ (hpre c)
  rw [Cert.ReferenceIdeal.Read.val_main_v42_eq, e0, e1, e2, e3, e4, e5, e6, e7, e8,
    Cert.ReferenceIdeal.SegValue.result_eq_tail]
  exact congrArg₂ (fun S n => SegMean.tail S n (arg6 m c) (arg7 m c)) (sums_eq m c f0 f1 f2 f3) (cnts_eq m c fpos)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
